-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x2 : Shape := ⟨2, ![50000, 2]⟩
abbrev S512x1024 : Shape := ⟨2, ![512, 1024]⟩
abbrev S2x25600000 : Shape := ⟨2, ![2, 25600000]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x25600000 : S_.BroadcastsInDim S2x25600000 (![] : Fin 0 → Fin S2x25600000.rank)
  reducesTo_S2x25600000_S_d0_1 : S2x25600000.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S2x25600000 1) : IVec S_ 1 :=
  let main_c_5 : IVec S_ 1 := constantI S_ 1 1#1
  let main_v17 : IVec S_ 1 := (fun x v => Host.reduce IntOp.andi x v reducesTo_S2x25600000_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x512 .f32) (main_arg1 : IVec S50000x2 32) (main_arg2 : IVec S50000x2 32) (main_arg3 : FVec F S512x1024 .f32) (main_arg4 : FVec F S512x1024 .f32) (main_arg5 : FVec F S2x25600000 .f32) (main_arg6 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x1024 .f32 := Host.absf main_arg3
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512x1024 .f32 := Host.absf main_arg4
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S2x25600000 .f32 := Host.absf main_arg5
  let main_cst_4 : FVec F S_ .f32 := constant S_ .f32 0x7F800000#32
  let main_v15 : FVec F S2x25600000 .f32 := broadcastInDim S2x25600000 ![] bcast_S_S2x25600000 main_cst_4
  let main_v16 : IVec S2x25600000 1 := cmpf .olt main_v14 main_v15
  fn_part1 (F := F) main_arg6 main_v13 main_v16
-- ==== Kernel.lean ====
abbrev S50000x512 : Shape := ⟨2, ![50000, 512]⟩
abbrev S50000x2 : Shape := ⟨2, ![50000, 2]⟩
abbrev S512x1024 : Shape := ⟨2, ![512, 1024]⟩
abbrev S2x25600000 : Shape := ⟨2, ![2, 25600000]⟩
abbrev S2 : Shape := ⟨1, ![2]⟩
abbrev S_ : Shape := ⟨0, ![]⟩
abbrev S50000x2x1 : Shape := ⟨3, ![50000, 2, 1]⟩
abbrev S50000x2x512 : Shape := ⟨3, ![50000, 2, 512]⟩
abbrev S512x512 : Shape := ⟨2, ![512, 512]⟩
abbrev S1000x512 : Shape := ⟨2, ![1000, 512]⟩
abbrev S1x25600000 : Shape := ⟨2, ![1, 25600000]⟩
abbrev S1x2 : Shape := ⟨2, ![1, 2]⟩
abbrev S1x512000 : Shape := ⟨2, ![1, 512000]⟩
abbrev S2x512000 : Shape := ⟨2, ![2, 512000]⟩
abbrev S1 : Shape := ⟨1, ![1]⟩
abbrev S1x1 : Shape := ⟨2, ![1, 1]⟩

abbrev nBuf : Space → Nat
  | .hbm => 64
  | .vmem => 21
  | .smem => 0
  | _ => 0

abbrev bufTy : (tb : Table) → Fin (tcTables nBuf tb) → BufTy
  | .hbm, ⟨0, _⟩ => ⟨S50000x512, .f32⟩
  | .hbm, ⟨1, _⟩ => ⟨S50000x2, .i32⟩
  | .hbm, ⟨2, _⟩ => ⟨S50000x2, .i32⟩
  | .hbm, ⟨3, _⟩ => ⟨S512x1024, .f32⟩
  | .hbm, ⟨4, _⟩ => ⟨S512x1024, .f32⟩
  | .hbm, ⟨5, _⟩ => ⟨S2x25600000, .f32⟩
  | .hbm, ⟨6, _⟩ => ⟨S2, .f32⟩
  | .hbm, ⟨7, _⟩ => ⟨S_, .i32⟩
  | .hbm, ⟨8, _⟩ => ⟨S50000x2, .i32⟩
  | .hbm, ⟨9, _⟩ => ⟨S50000x2, .i1⟩
  | .hbm, ⟨10, _⟩ => ⟨S_, .i32⟩
  | .hbm, ⟨11, _⟩ => ⟨S50000x2, .i32⟩
  | .hbm, ⟨12, _⟩ => ⟨S50000x2, .i32⟩
  | .hbm, ⟨13, _⟩ => ⟨S50000x2, .i32⟩
  | .hbm, ⟨14, _⟩ => ⟨S50000x2x1, .i32⟩
  | .hbm, ⟨15, _⟩ => ⟨S50000x2x512, .f32⟩
  | .hbm, ⟨16, _⟩ => ⟨S_, .f32⟩
  | .hbm, ⟨17, _⟩ => ⟨S50000x512, .f32⟩
  | .hbm, ⟨18, _⟩ => ⟨S_, .f32⟩
  | .hbm, ⟨19, _⟩ => ⟨S50000x512, .f32⟩
  | .hbm, ⟨20, _⟩ => ⟨S50000x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S50000x512, .f32⟩
  | .hbm, ⟨26, _⟩ => ⟨S_, .i32⟩
  | .hbm, ⟨27, _⟩ => ⟨S50000x2, .i32⟩
  | .hbm, ⟨28, _⟩ => ⟨S50000x2, .i1⟩
  | .hbm, ⟨29, _⟩ => ⟨S_, .i32⟩
  | .hbm, ⟨30, _⟩ => ⟨S50000x2, .i32⟩
  | .hbm, ⟨31, _⟩ => ⟨S50000x2, .i32⟩
  | .hbm, ⟨32, _⟩ => ⟨S50000x2, .i32⟩
  | .hbm, ⟨33, _⟩ => ⟨S50000x2x1, .i32⟩
  | .hbm, ⟨34, _⟩ => ⟨S50000x2x512, .f32⟩
  | .hbm, ⟨35, _⟩ => ⟨S_, .f32⟩
  | .hbm, ⟨36, _⟩ => ⟨S50000x512, .f32⟩
  | .hbm, ⟨37, _⟩ => ⟨S_, .f32⟩
  | .hbm, ⟨38, _⟩ => ⟨S50000x512, .f32⟩
  | .hbm, ⟨39, _⟩ => ⟨S50000x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S50000x512, .f32⟩
  | .hbm, ⟨45, _⟩ => ⟨S1x25600000, .f32⟩
  | .hbm, ⟨46, _⟩ => ⟨S1x2, .f32⟩
  | .hbm, ⟨47, _⟩ => ⟨S1x2, .f32⟩
  | .hbm, ⟨48, _⟩ => ⟨S1x2, .f32⟩
  | .hbm, ⟨49, _⟩ => ⟨S_, .f32⟩
  | .hbm, ⟨50, _⟩ => ⟨S1, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S1x1, .f32⟩
  | .hbm, ⟨55, _⟩ => ⟨S1x2, .f32⟩
  | .hbm, ⟨56, _⟩ => ⟨S1x2, .f32⟩
  | .hbm, ⟨57, _⟩ => ⟨S1x2, .f32⟩
  | .hbm, ⟨58, _⟩ => ⟨S_, .f32⟩
  | .hbm, ⟨59, _⟩ => ⟨S1, .f32⟩
  | .hbm, ⟨60, _⟩ => ⟨S1x1, .f32⟩
  | .hbm, ⟨61, _⟩ => ⟨S1x1, .f32⟩
  | .hbm, ⟨62, _⟩ => ⟨S1x2, .f32⟩
  | .hbm, ⟨63, _⟩ => ⟨S1x2, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S512x512, .f32⟩
  | .local _ .vmem, ⟨13, _⟩ => ⟨S512x512, .f32⟩
  | .local _ .vmem, ⟨14, _⟩ => ⟨S1000x512, .f32⟩
  | .local _ .vmem, ⟨15, _⟩ => ⟨S1000x512, .f32⟩
  | .local _ .vmem, ⟨16, _⟩ => ⟨S1x512000, .f32⟩
  | .local _ .vmem, ⟨17, _⟩ => ⟨S1x512000, .f32⟩
  | .local _ .vmem, ⟨18, _⟩ => ⟨S2x512000, .f32⟩
  | .local _ .vmem, ⟨19, _⟩ => ⟨S2x512000, .f32⟩
  | .local _ .vmem, ⟨20, _⟩ => ⟨S1x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_call0_cst_0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_cst_1 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_v34 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x512000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x512000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  bcast_S_S50000x2 : S_.BroadcastsInDim S50000x2 (![] : Fin 0 → Fin S50000x2.rank)
  bcast_S50000x2_S50000x2x1_0_1 : S50000x2.BroadcastsInDim S50000x2x1 (![0, 1] : Fin 2 → Fin S50000x2x1.rank)
  reducesTo_S50000x2x512_S50000x512_d1 : S50000x2x512.ReducesTo [1] S50000x512
  h_S_ : 0 < S_.numel
  bcast_S_S50000x512 : S_.BroadcastsInDim S50000x512 (![] : Fin 0 → Fin S50000x512.rank)
  slices_S512x1024_S512x512_0_0 : S512x1024.Slices ![0, 0] S512x512
  transposes_S512x512_S512x512_1_0 : S512x512.Transposes [1, 0] S512x512
  slices_S512x1024_S512x512_0_512 : S512x1024.Slices ![0, 512] S512x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S50000x512_S1x25600000 : S50000x512.ShapeCasts S1x25600000
  inb_S1x2_S1x2_0_0 : ∀ a, (![0, 0] : Fin 2 → Nat) a + S1x2.size a ≤ S1x2.size a
  h_S1x2 : 0 < S1x2.numel
  inb_S1x512000_S1x512000_0_0 : ∀ a, (![0, 0] : Fin 2 → Nat) a + S1x512000.size a ≤ S1x512000.size a
  h_S1x512000 : 0 < S1x512000.numel
  shapeCasts_S1x512000_S1x512000 : S1x512000.ShapeCasts S1x512000
  inb_S2x512000_S2x512000_0_0 : ∀ a, (![0, 0] : Fin 2 → Nat) a + S2x512000.size a ≤ S2x512000.size a
  h_S2x512000 : 0 < S2x512000.numel
  shapeCasts_S1x2_S1x2 : S1x2.ShapeCasts S1x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  gather_S50000x512_S50000x2x1_S50000x2x512_2_0_n_n_0_2_1512_wf : GatherDims.WF S50000x512 S50000x2x1 S50000x2x512 [2] [0] [] [0] [] 2 ![1, 512]
  dot_S1000x512_S512x512_S1000x512_1_0_0_1_n_n_wf : DotDims.WF S1000x512 S512x512 S1000x512 [1] [0] [0] [1] [] []
  dot_S1x512000_S2x512000_S1x2_1_1_0_0_n_n_wf : DotDims.WF S1x512000 S2x512000 S1x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S50000x512.size a
  hwx0_4 : ∀ i : grid0.Coords, EltTy.bits .f32 = 32 ∨ (Rect.block (s := S50000x512) S1000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S50000x512.size a
  hwx1_4 : ∀ i : grid1.Coords, EltTy.bits .f32 = 32 ∨ (Rect.block (s := S50000x512) S1000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512000.size a ≤ S1x25600000.size a
  hwx2_0 : ∀ i : grid2.Coords, EltTy.bits .f32 = 32 ∨ (Rect.block (s := S1x25600000) S1x512000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x512000.size a ≤ S2x25600000.size a
  hwx2_1 : ∀ i : grid2.Coords, EltTy.bits .f32 = 32 ∨ (Rect.block (s := S2x25600000) S2x512000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)

variable [Facts₀]

def gather_S50000x512_S50000x2x1_S50000x2x512_2_0_n_n_0_2_1512 : GatherDims S50000x512 S50000x2x1 S50000x2x512 where
  offsetDims := [2]
  collapsedSliceDims := [0]
  operandBatchingDims := []
  startIndicesBatchingDims := []
  startIndexMap := [0]
  indexVectorDim := 2
  sliceSizes := ![1, 512]
  wf := gather_S50000x512_S50000x2x1_S50000x2x512_2_0_n_n_0_2_1512_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1x512000_S2x512000_S1x2_1_1_0_0_n_n : DotDims S1x512000 S2x512000 S1x2 where
  lhsContracting := [1]
  rhsContracting := [1]
  lhsNonContracting := [0]
  rhsNonContracting := [0]
  lhsBatch := []
  rhsBatch := []
  wf := dot_S1x512000_S2x512000_S1x2_1_1_0_0_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S1x512000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S2x512000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x2.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S50000x2 : Shape := ⟨2, ![50000, 2]⟩
abbrev S512x1024 : Shape := ⟨2, ![512, 1024]⟩
abbrev S2x25600000 : Shape := ⟨2, ![2, 25600000]⟩
abbrev S2 : Shape := ⟨1, ![2]⟩
abbrev S_ : Shape := ⟨0, ![]⟩
abbrev S50000x2x1 : Shape := ⟨3, ![50000, 2, 1]⟩
abbrev S50000x2x512 : Shape := ⟨3, ![50000, 2, 512]⟩
abbrev S50000x1024 : Shape := ⟨2, ![50000, 1024]⟩
abbrev S1024x512 : Shape := ⟨2, ![1024, 512]⟩
abbrev S1x25600000 : Shape := ⟨2, ![1, 25600000]⟩
abbrev S25600000x2 : Shape := ⟨2, ![25600000, 2]⟩
abbrev S1x2 : Shape := ⟨2, ![1, 2]⟩
abbrev S1 : Shape := ⟨1, ![1]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x2, .i32⟩
  | .hbm, ⟨2, _⟩ => ⟨S50000x2, .i32⟩
  | .hbm, ⟨3, _⟩ => ⟨S512x1024, .f32⟩
  | .hbm, ⟨4, _⟩ => ⟨S512x1024, .f32⟩
  | .hbm, ⟨5, _⟩ => ⟨S2x25600000, .f32⟩
  | .hbm, ⟨6, _⟩ => ⟨S2, .f32⟩
  | .hbm, ⟨7, _⟩ => ⟨S_, .i32⟩
  | .hbm, ⟨8, _⟩ => ⟨S50000x2, .i32⟩
  | .hbm, ⟨9, _⟩ => ⟨S50000x2, .i1⟩
  | .hbm, ⟨10, _⟩ => ⟨S_, .i32⟩
  | .hbm, ⟨11, _⟩ => ⟨S50000x2, .i32⟩
  | .hbm, ⟨12, _⟩ => ⟨S50000x2, .i32⟩
  | .hbm, ⟨13, _⟩ => ⟨S50000x2, .i32⟩
  | .hbm, ⟨14, _⟩ => ⟨S50000x2x1, .i32⟩
  | .hbm, ⟨15, _⟩ => ⟨S50000x2x512, .f32⟩
  | .hbm, ⟨16, _⟩ => ⟨S_, .f32⟩
  | .hbm, ⟨17, _⟩ => ⟨S50000x512, .f32⟩
  | .hbm, ⟨18, _⟩ => ⟨S_, .f32⟩
  | .hbm, ⟨19, _⟩ => ⟨S50000x512, .f32⟩
  | .hbm, ⟨20, _⟩ => ⟨S50000x512, .f32⟩
  | .hbm, ⟨21, _⟩ => ⟨S50000x1024, .f32⟩
  | .hbm, ⟨22, _⟩ => ⟨S1024x512, .f32⟩
  | .hbm, ⟨23, _⟩ => ⟨S50000x512, .f32⟩
  | .hbm, ⟨24, _⟩ => ⟨S_, .f32⟩
  | .hbm, ⟨25, _⟩ => ⟨S50000x512, .f32⟩
  | .hbm, ⟨26, _⟩ => ⟨S50000x512, .f32⟩
  | .hbm, ⟨27, _⟩ => ⟨S_, .i32⟩
  | .hbm, ⟨28, _⟩ => ⟨S50000x2, .i32⟩
  | .hbm, ⟨29, _⟩ => ⟨S50000x2, .i1⟩
  | .hbm, ⟨30, _⟩ => ⟨S_, .i32⟩
  | .hbm, ⟨31, _⟩ => ⟨S50000x2, .i32⟩
  | .hbm, ⟨32, _⟩ => ⟨S50000x2, .i32⟩
  | .hbm, ⟨33, _⟩ => ⟨S50000x2, .i32⟩
  | .hbm, ⟨34, _⟩ => ⟨S50000x2x1, .i32⟩
  | .hbm, ⟨35, _⟩ => ⟨S50000x2x512, .f32⟩
  | .hbm, ⟨36, _⟩ => ⟨S_, .f32⟩
  | .hbm, ⟨37, _⟩ => ⟨S50000x512, .f32⟩
  | .hbm, ⟨38, _⟩ => ⟨S_, .f32⟩
  | .hbm, ⟨39, _⟩ => ⟨S50000x512, .f32⟩
  | .hbm, ⟨40, _⟩ => ⟨S50000x512, .f32⟩
  | .hbm, ⟨41, _⟩ => ⟨S50000x1024, .f32⟩
  | .hbm, ⟨42, _⟩ => ⟨S1024x512, .f32⟩
  | .hbm, ⟨43, _⟩ => ⟨S50000x512, .f32⟩
  | .hbm, ⟨44, _⟩ => ⟨S_, .f32⟩
  | .hbm, ⟨45, _⟩ => ⟨S50000x512, .f32⟩
  | .hbm, ⟨46, _⟩ => ⟨S50000x512, .f32⟩
  | .hbm, ⟨47, _⟩ => ⟨S1x25600000, .f32⟩
  | .hbm, ⟨48, _⟩ => ⟨S25600000x2, .f32⟩
  | .hbm, ⟨49, _⟩ => ⟨S1x2, .f32⟩
  | .hbm, ⟨50, _⟩ => ⟨S1x2, .f32⟩
  | .hbm, ⟨51, _⟩ => ⟨S1x2, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S1, .f32⟩
  | .hbm, ⟨56, _⟩ => ⟨S1, .f32⟩
  | .hbm, ⟨57, _⟩ => ⟨S1x1, .f32⟩
  | .hbm, ⟨58, _⟩ => ⟨S1x2, .f32⟩
  | .hbm, ⟨59, _⟩ => ⟨S1x2, .f32⟩
  | .hbm, ⟨60, _⟩ => ⟨S1x2, .f32⟩
  | .hbm, ⟨61, _⟩ => ⟨S_, .f32⟩
  | .hbm, ⟨62, _⟩ => ⟨S1, .f32⟩
  | .hbm, ⟨63, _⟩ => ⟨S1x1, .f32⟩
  | .hbm, ⟨64, _⟩ => ⟨S1x1, .f32⟩
  | .hbm, ⟨65, _⟩ => ⟨S1x2, .f32⟩
  | .hbm, ⟨66, _⟩ => ⟨S1x2, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v33 : Ref sig .tc := ⟨.hbm, 66, rfl⟩

abbrev nD : Nat := 1
abbrev τ : Topo := Topo.v7x

variable {F : FTy → Type} [FloatOps F]

class Facts₀ : Prop where
  bcast_S_S50000x2 : S_.BroadcastsInDim S50000x2 (![] : Fin 0 → Fin S50000x2.rank)
  bcast_S50000x2_S50000x2x1_0_1 : S50000x2.BroadcastsInDim S50000x2x1 (![0, 1] : Fin 2 → Fin S50000x2x1.rank)
  reducesTo_S50000x2x512_S50000x512_d1 : S50000x2x512.ReducesTo [1] S50000x512
  h_S_ : 0 < S_.numel
  bcast_S_S50000x512 : S_.BroadcastsInDim S50000x512 (![] : Fin 0 → Fin S50000x512.rank)
  concatenates_S50000x512_S50000x512_S50000x1024_d1 : Shape.Concatenates [S50000x512, S50000x512] S50000x1024 1
  transposes_S512x1024_S1024x512_1_0 : S512x1024.Transposes [1, 0] S1024x512
  shapeCasts_S50000x512_S1x25600000 : S50000x512.ShapeCasts S1x25600000
  transposes_S2x25600000_S25600000x2_1_0 : S2x25600000.Transposes [1, 0] S25600000x2
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  gather_S50000x512_S50000x2x1_S50000x2x512_2_0_n_n_0_2_1512_wf : GatherDims.WF S50000x512 S50000x2x1 S50000x2x512 [2] [0] [] [0] [] 2 ![1, 512]
  dot_S50000x1024_S1024x512_S50000x512_1_0_0_1_n_n_wf : DotDims.WF S50000x1024 S1024x512 S50000x512 [1] [0] [0] [1] [] []
  dot_S1x25600000_S25600000x2_S1x2_1_0_0_1_n_n_wf : DotDims.WF S1x25600000 S25600000x2 S1x2 [1] [0] [0] [1] [] []

variable [Facts₀]

def gather_S50000x512_S50000x2x1_S50000x2x512_2_0_n_n_0_2_1512 : GatherDims S50000x512 S50000x2x1 S50000x2x512 where
  offsetDims := [2]
  collapsedSliceDims := [0]
  operandBatchingDims := []
  startIndicesBatchingDims := []
  startIndexMap := [0]
  indexVectorDim := 2
  sliceSizes := ![1, 512]
  wf := gather_S50000x512_S50000x2x1_S50000x2x512_2_0_n_n_0_2_1512_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def dot_S1x25600000_S25600000x2_S1x2_1_0_0_1_n_n : DotDims S1x25600000 S25600000x2 S1x2 where
  lhsContracting := [1]
  rhsContracting := [0]
  lhsNonContracting := [0]
  rhsNonContracting := [1]
  lhsBatch := []
  rhsBatch := []
  wf := dot_S1x25600000_S25600000x2_S1x2_1_0_0_1_n_n_wf

class Facts : Prop extends Facts₀ where

variable [Facts]
-- ==== Proof.Spec.lean ====
/-
  The two-layer neighbour-mean network, index by index over the extended reals.

  A layer takes node features `h` ([50000, 512]), the neighbour means `a` (same shape) and two
  square weight blocks `ws`, `wn` ([512, 512], already laid out input-major) and returns
      relu (h · ws + a · wn)[n, o] = max (∑ₖ h[n, k] · ws[k, o] + ∑ₖ a[n, k] · wn[k, o]) 0.
  The weight blocks come from one [512, 1024] matrix `W` (output-major, self block then
  neighbour block along its second axis): `selfT W [k, o] = W[o, k]`, `neighT W [k, o] = W[o, 512 + k]`.
  The final projection of the flattened features `f` ([1, 25600000]) by `w` ([2, 25600000]) is
      fcSum f w [0, j] = ∑ᵢ f[0, i] · w[j, i].
-/
import Idealize.ShloMosaic.PureOps.Ideal
import Idealize.ShloMosaic.Lib.ValueIdx

noncomputable section

open scoped BigOperators

namespace Cert.Sage

open Idealize.ShloMosaic Idealize.ShloMosaic.ValueIdx

/-- Node features: 50000 nodes, 512 features each. -/
abbrev SN : Shape := ⟨2, ![50000, 512]⟩
/-- One square weight block. -/
abbrev SW : Shape := ⟨2, ![512, 512]⟩
/-- A layer's weight matrix: 512 outputs by (512 self inputs, then 512 neighbour inputs). -/
abbrev SWW : Shape := ⟨2, ![512, 1024]⟩
/-- The flattened features. -/
abbrev SF : Shape := ⟨2, ![1, 25600000]⟩
/-- The projection's weights, one row per class. -/
abbrev SFW : Shape := ⟨2, ![2, 25600000]⟩
/-- The two logits. -/
abbrev SL : Shape := ⟨2, ![1, 2]⟩

/-- One layer: `relu (h · ws + a · wn)`, the two products summed over their 512 inputs each. -/
def layer (h a : SN.Idx → EReal) (ws wn : SW.Idx → EReal) : SN.Idx → EReal := fun i =>
  max ((∑ k : Fin 512, h (ix2 ⟨(i 0).val, (i 0).isLt⟩ k) * ws (ix2 k ⟨(i 1).val, (i 1).isLt⟩))
      + ∑ k : Fin 512, a (ix2 ⟨(i 0).val, (i 0).isLt⟩ k) * wn (ix2 k ⟨(i 1).val, (i 1).isLt⟩)) 0

theorem layer_apply (h a : SN.Idx → EReal) (ws wn : SW.Idx → EReal) (p : Fin 50000) (q : Fin 512) :
    layer h a ws wn (ix2 p q)
      = max ((∑ k : Fin 512, h (ix2 p k) * ws (ix2 k q)) + ∑ k : Fin 512, a (ix2 p k) * wn (ix2 k q)) 0 := rfl

/-- The self block of a layer's weights, input-major: `[k, o] ↦ W[o, k]`. -/
def selfT (W : SWW.Idx → EReal) : SW.Idx → EReal := fun i =>
  W (ix2 ⟨(i 1).val, (i 1).isLt⟩ ⟨(i 0).val, Nat.lt_of_lt_of_le (i 0).isLt (by decide)⟩)

theorem selfT_apply (W : SWW.Idx → EReal) (k o : Fin 512) :
    selfT W (ix2 k o) = W (ix2 o ⟨k.val, Nat.lt_of_lt_of_le k.isLt (by decide)⟩) := rfl

/-- The neighbour block of a layer's weights, input-major: `[k, o] ↦ W[o, 512 + k]`. -/
def neighT (W : SWW.Idx → EReal) : SW.Idx → EReal := fun i =>
  W (ix2 ⟨(i 1).val, (i 1).isLt⟩ ⟨512 + (i 0).val, Nat.add_lt_add_left (i 0).isLt 512⟩)

theorem neighT_apply (W : SWW.Idx → EReal) (k o : Fin 512) :
    neighT W (ix2 k o) = W (ix2 o ⟨512 + k.val, Nat.add_lt_add_left k.isLt 512⟩) := rfl

/-- The projection: logit `j` is the sum over all 25600000 flattened features of feature times weight. -/
def fcSum (f : SF.Idx → EReal) (w : SFW.Idx → EReal) : SL.Idx → EReal := fun j =>
  ∑ i : Fin 25600000, f (ix2 (0 : Fin 1) i) * w (ix2 ⟨(j 1).val, (j 1).isLt⟩ i)

theorem fcSum_apply (f : SF.Idx → EReal) (w : SFW.Idx → EReal) (p : Fin 1) (q : Fin 2) :
    fcSum f w (ix2 p q) = ∑ i : Fin 25600000, f (ix2 (0 : Fin 1) i) * w (ix2 q i) := rfl

end Cert.Sage

end
-- ==== Proof.KSpec.lean ====
/-
  What the network computes, as one function of its seven inputs, over the extended reals.

  `agg h idx` is the mean over the two sampled neighbours of each node: negative indices are wrapped
  once by the number of nodes, the rows are gathered, summed over the sample axis from zero and
  divided by two. A layer (`Cert.Sage.layer`) is applied to the features and their neighbour mean
  with the two halves of the layer's weight matrix; the second layer is applied to the first's
  result. `out0` is the second layer's result flattened row-major; `out1` is the log-softmax of
  the projection of that flattened vector by `fc_w`, plus the bias.
-/
import proofs.«146143_j43654047596868_1_alg».proof.Proof.Gen.KernelIdeal
import proofs.«146143_j43654047596868_1_alg».proof.Proof.Spec

noncomputable section

namespace Cert.KernelIdeal.KSpec

open Cert.KernelIdeal Cert.KernelIdeal.Gen Idealize.ShloMosaic Idealize.ShloMosaic.TcCoe Cert.Sage

/-- Node features, a layer's weights, the sampled neighbour indices, the projection's weights and bias. -/
abbrev Feat := FVec Ideal S50000x512 .f32
abbrev Wts := FVec Ideal S512x1024 .f32
abbrev Nbr := IVec S50000x2 32
abbrev FcW := FVec Ideal S2x25600000 .f32
abbrev FcB := FVec Ideal S2 .f32
abbrev Flat := FVec Ideal S1x25600000 .f32
abbrev Logit := FVec Ideal S1x2 .f32

/-- The sampled indices, a negative one wrapped once by the number of nodes, as the gather's start indices. -/
def wrapIdx (idx : Nbr) : IVec S50000x2x1 32 :=
  broadcastInDim S50000x2x1 ![0, 1] bcast_S50000x2_S50000x2x1_0_1
    (select (cmpi .slt idx (broadcastInDim S50000x2 ![] bcast_S_S50000x2 (constantI S_ 32 0#32)))
      (addi idx (broadcastInDim S50000x2 ![] bcast_S_S50000x2 (constantI S_ 32 50000#32))) idx)

/-- The mean of the two sampled neighbours' feature rows. -/
def agg (h : Feat) (idx : Nbr) : Feat :=
  Host.divf (F := Ideal)
    (Host.reduceAdd (F := Ideal) (Host.gather gather_S50000x512_S50000x2x1_S50000x2x512_2_0_n_n_0_2_1512 h (wrapIdx idx))
      (constant (F := Ideal) S_ .f32 0x00000000#32) reducesTo_S50000x2x512_S50000x512_d1 h_S_)
    (broadcastInDim S50000x512 ![] bcast_S_S50000x512 (constant (F := Ideal) S_ .f32 0x40000000#32))

/-- The first layer's result. -/
def L1 (x : Feat) (i1 : Nbr) (W1 : Wts) : Feat := layer x (agg x i1) (selfT W1) (neighT W1)

/-- The second layer's result. -/
def L2 (x : Feat) (i1 i2 : Nbr) (W1 W2 : Wts) : Feat :=
  layer (L1 x i1 W1) (agg (L1 x i1 W1) i2) (selfT W2) (neighT W2)

/-- Row-major flattening of the node features to one row. -/
def flat (h : Feat) : Flat := shapeCast S1x25600000 h shapeCasts_S50000x512_S1x25600000

/-- The bias as a row. -/
def biasRow (b : FcB) : Logit := broadcastInDim S1x2 ![1] bcast_S2_S1x2_1 b

/-- Log-softmax along the two logits: `l - max l`, minus the log of the sum of its exponentials. -/
def logSoftmax (l : Logit) : Logit :=
  let s : Logit := subf (F := Ideal) l (broadcastInDim S1x2 ![0, 1] bcast_S1x1_S1x2_0_1 (broadcastInDim S1x1 ![0] bcast_S1_S1x1_0
    (maximumf (F := Ideal) (broadcastInDim S1 ![] bcast_S_S1 (constant (F := Ideal) S_ .f32 0xFF800000#32))
      (Host.reduce (FloatOps.maximumf (F := Ideal)) l (constant (F := Ideal) S_ .f32 0xFF800000#32) reducesTo_S1x2_S1_d1 h_S_))))
  subf (F := Ideal) s (broadcastInDim S1x2 ![0, 1] bcast_S1x1_S1x2_0_1 (Host.log (F := Ideal) (broadcastInDim S1x1 ![0] bcast_S1_S1x1_0
    (Host.reduceAdd (F := Ideal) (Host.exp (F := Ideal) s) (constant (F := Ideal) S_ .f32 0x00000000#32) reducesTo_S1x2_S1_d1 h_S_))))

/-- The first result: the second layer's features, flattened. -/
def out0 (x : Feat) (i1 i2 : Nbr) (W1 W2 : Wts) : Flat := flat (L2 x i1 i2 W1 W2)

/-- The second result: log-softmax of projection plus bias. -/
def out1 (x : Feat) (i1 i2 : Nbr) (W1 W2 : Wts) (fcw : FcW) (fcb : FcB) : Logit :=
  logSoftmax (addf (F := Ideal) (fcSum (out0 x i1 i2 W1 W2) fcw) (biasRow fcb))

end Cert.KernelIdeal.KSpec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Region0.lean ====
import proofs.«146143_j43654047596868_1_alg».proof.Proof.Gen.KernelIdeal.Frame
import proofs.«146143_j43654047596868_1_alg».proof.Proof.Spec
import proofs.«146143_j43654047596868_1_alg».proof.Proof.LibDot2
import Idealize.ShloMosaic.Lib.Pipeline.Value
import Idealize.ShloMosaic.Lib.ValueIdx
import Idealize.ShloMosaic.PureOps.Ideal.Laws

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Sage
open Idealize.ShloMosaic.ValueIdx
open scoped BigOperators

/-- The block product's dimension numbers are those of the plain matrix product. -/
theorem dot_eq_mm0 : dot_S1000x512_S512x512_S1000x512_1_0_0_1_n_n
    = Dot2.mmDims 1000 512 512 dot_S1000x512_S512x512_S1000x512_1_0_0_1_n_n_wf := rfl

/-- The body's result at row p, column q of a block: the two products summed over their 512 inputs, added, and clamped below at zero. -/
theorem pay0_apply (x0 x1 : Vec Ideal S1000x512 .f32) (x2 x3 : Vec Ideal S512x512 .f32) (p : Fin 1000) (q : Fin 512) :
    k0_pay1 (F := Ideal) x0 x1 x2 x3 (ix2 p q)
      = max ((∑ k : Fin 512, x0 (ix2 p k) * x2 (ix2 k q)) + ∑ k : Fin 512, x1 (ix2 p k) * x3 (ix2 k q)) 0 := by
  unfold k0_pay1
  rw [maximumf_apply, addf_apply, broadcast_apply, dot_eq_mm0]
  refine congrArg₂ max (congrArg₂ (· + ·) ?_ ?_) ?_
  · refine (Dot2.matmul_zero_mm_apply _ none _ _ p q).trans ?_
    simp only [truncf_apply, shapeCast_self]
  · refine (Dot2.matmul_zero_mm_apply _ none _ _ p q).trans ?_
    simp only [truncf_apply, shapeCast_self]
  · exact Ideal.ofBits_zero_f32

theorem zero_off0 : (![0, 0] : Fin 2 → Nat) = fun _ => 0 := funext fun a => by fin_cases a <;> rfl

/-- The index maps over the grid: the two feature windows and the result window sit at row block t, column block 0; the two weight windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer of blocks: when row p of the two feature blocks is row r of h and of a, and column q of the two weight blocks is column q of ws and of wn, the body's result at (p, q) is the layer at (r, q). -/
theorem block_layer0 (h a : SN.Idx → EReal) (ws wn : SW.Idx → EReal)
    (x0 x1 : Vec Ideal S1000x512 .f32) (x2 x3 : Vec Ideal S512x512 .f32) (p : Fin 1000) (q : Fin 512) (r : Fin 50000)
    (h0 : ∀ k : Fin 512, x0 (ix2 p k) = h (ix2 r k)) (h1 : ∀ k : Fin 512, x1 (ix2 p k) = a (ix2 r k))
    (h2 : ∀ k : Fin 512, x2 (ix2 k q) = ws (ix2 k q)) (h3 : ∀ k : Fin 512, x3 (ix2 k q) = wn (ix2 k q)) :
    k0_pay1 (F := Ideal) x0 x1 x2 x3 (ix2 p q) = layer h a ws wn (ix2 r q) := by
  rw [pay0_apply, layer_apply]
  simp only [h0, h1, h2, h3]

/-- What point t writes back is block t of the layer of the four operand arrays. -/
theorem flushed0_eq (V : (c : Dev nD) → (b : Ref sig .tc) → Buf (Elt Ideal) ((c : Thread nD τ).loc b)) (c : Dev nD) (t : Fin cfg0.N) :
    (dat0 (F := Ideal) V c).flushed 4 t
      = ((cfg0.win 4).blk t).view.read (Elt Ideal) (layer (V c main_arg0) (V c main_v9) (V c main_v11) (V c main_v13)) := by
  show (cfg0.win 4).cut (grid0.coords t) ((dat0 V c).after 4 t) = _
  rw [after0_4]
  unfold out0_4
  rw [View.canon_unit_zero zero_off0]
  simp only [View.ld_unit_zero (S := S1000x512) zero_off0, View.ld_unit_zero (S := S512x512) zero_off0]
  obtain ⟨e00, e01, e10, e11, e20, e21, e30, e31, e40, e41⟩ := idx_facts0 t
  have ht : t.val < 50 := Nat.lt_of_lt_of_eq t.isLt N_0
  funext j
  obtain ⟨p, q, rfl⟩ : ∃ (p : Fin 1000) (q : Fin 512), j = ix2 p q := ⟨j 0, j 1, eq_ix2 j⟩
  have hp : p.val < 1000 := p.isLt
  have hr : t.val * 1000 + p.val < 50000 := by omega
  have hemb : ((cfg0.win 4).blk t).view.emb (ix2 p q) = (ix2 (⟨t.val * 1000 + p.val, hr⟩ : Fin 50000) q : SN.Idx) := by
    funext a; apply Fin.ext
    match a with
    | ⟨0, _⟩ => show win0_4.index t (0 : Fin 2) * 1000 + 1 * p.val = t.val * 1000 + p.val; rw [e40]; omega
    | ⟨1, _⟩ => show win0_4.index t (1 : Fin 2) * 512 + 1 * q.val = q.val; rw [e41]; omega
  show k0_pay1 (F := Ideal) (iblk0 V c 0 t) (iblk0 V c 1 t) (iblk0 V c 2 t) (iblk0 V c 3 t) (ix2 p q)
    = layer (V c main_arg0) (V c main_v9) (V c main_v11) (V c main_v13) (((cfg0.win 4).blk t).view.emb (ix2 p q))
  refine (block_layer0 (V c main_arg0) (V c main_v9) (V c main_v11) (V c main_v13) _ _ _ _ p q ⟨t.val * 1000 + p.val, hr⟩
    (fun k => ?_) (fun k => ?_) (fun k => ?_) (fun k => ?_)).trans (congrArg _ hemb.symm)
  · show V c main_arg0 (((cfg0.win 0).blk t).view.emb (ix2 p k)) = V c main_arg0 (ix2 (⟨t.val * 1000 + p.val, hr⟩ : Fin 50000) k)
    refine congrArg _ ?_
    funext a; apply Fin.ext
    match a with
    | ⟨0, _⟩ => show win0_0.index t (0 : Fin 2) * 1000 + 1 * p.val = t.val * 1000 + p.val; rw [e00]; omega
    | ⟨1, _⟩ => show win0_0.index t (1 : Fin 2) * 512 + 1 * k.val = k.val; rw [e01]; omega
  · show V c main_v9 (((cfg0.win 1).blk t).view.emb (ix2 p k)) = V c main_v9 (ix2 (⟨t.val * 1000 + p.val, hr⟩ : Fin 50000) k)
    refine congrArg _ ?_
    funext a; apply Fin.ext
    match a with
    | ⟨0, _⟩ => show win0_1.index t (0 : Fin 2) * 1000 + 1 * p.val = t.val * 1000 + p.val; rw [e10]; omega
    | ⟨1, _⟩ => show win0_1.index t (1 : Fin 2) * 512 + 1 * k.val = k.val; rw [e11]; omega
  · show V c main_v11 (((cfg0.win 2).blk t).view.emb (ix2 k q)) = V c main_v11 (ix2 k q)
    refine congrArg _ ?_
    funext a; apply Fin.ext
    match a with
    | ⟨0, _⟩ => show win0_2.index t (0 : Fin 2) * 512 + 1 * k.val = k.val; rw [e20]; omega
    | ⟨1, _⟩ => show win0_2.index t (1 : Fin 2) * 512 + 1 * q.val = q.val; rw [e21]; omega
  · show V c main_v13 (((cfg0.win 3).blk t).view.emb (ix2 k q)) = V c main_v13 (ix2 k q)
    refine congrArg _ ?_
    funext a; apply Fin.ext
    match a with
    | ⟨0, _⟩ => show win0_3.index t (0 : Fin 2) * 512 + 1 * k.val = k.val; rw [e30]; omega
    | ⟨1, _⟩ => show win0_3.index t (1 : Fin 2) * 512 + 1 * q.val = q.val; rw [e31]; omega

/-- An index of the result array is in point t's block iff each coordinate is in the block's range on its axis. -/
theorem mem_blk0 (t : Fin cfg0.N) (i : S50000x512.Idx) :
    i ∈ ((cfg0.win 4).blk t).view.set ↔ ∀ a : Fin 2, win0_4.index t a * S1000x512.size a ≤ (i a).val ∧ (i a).val < win0_4.index t a * S1000x512.size a + S1000x512.size a := by
  show i ∈ ((View.whole main_v14).slice (win0_4.rect t)).set ↔ _
  rw [View.set_slice_whole, Rect.mem_set_unit]
  exact Iff.rfl

/-- Every row r of the result array is in the block of point r / 1000, which writes back. -/
theorem cover0 (i : S50000x512.Idx) :
    ∃ t : Fin cfg0.N, (cfg0.win 4).flush t = true ∧ i ∈ ((cfg0.win 4).blk t).view.set := by
  have hi0 : (i 0).val < 50000 := (i 0).isLt
  have hi1 : (i 1).val < 512 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, -, -, -, -, e40, e41⟩ := idx_facts0 t
  refine ⟨t, flush0_4 t, ?_⟩
  rw [mem_blk0]
  intro a
  match a with
  | ⟨0, _⟩ => show win0_4.index t (0 : Fin 2) * 1000 ≤ (i 0).val ∧ (i 0).val < win0_4.index t (0 : Fin 2) * 1000 + 1000; rw [e40, ht]; omega
  | ⟨1, _⟩ => show win0_4.index t (1 : Fin 2) * 512 ≤ (i 1).val ∧ (i 1).val < win0_4.index t (1 : Fin 2) * 512 + 512; rw [e41]; omega

/-- Region 0's result array after the region: the first layer applied to the region's four operand arrays as it finds them. -/
theorem region0_arr (V : (c : Dev nD) → (b : Ref sig .tc) → Buf (Elt Ideal) ((c : Thread nD τ).loc b)) (c : Dev nD) :
    (dat0 (F := Ideal) V c).arrAt 4 cfg0.N = layer (V c main_arg0) (V c main_v9) (V c main_v11) (V c main_v13) :=
  (dat0 (F := Ideal) V c).arrAt_eq_of_cover 4 (layer (V c main_arg0) (V c main_v9) (V c main_v11) (V c main_v13))
    (fun t _ => flushed0_eq V c t) cover0

end Cert.KernelIdeal.Value

end
-- ==== Proof.Region1.lean ====
import proofs.«146143_j43654047596868_1_alg».proof.Proof.Gen.KernelIdeal.Frame
import proofs.«146143_j43654047596868_1_alg».proof.Proof.Spec
import proofs.«146143_j43654047596868_1_alg».proof.Proof.LibDot2
import Idealize.ShloMosaic.Lib.Pipeline.Value
import Idealize.ShloMosaic.Lib.ValueIdx
import Idealize.ShloMosaic.PureOps.Ideal.Laws

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Sage
open Idealize.ShloMosaic.ValueIdx
open scoped BigOperators

/-- The block product's dimension numbers are those of the plain matrix product. -/
theorem dot_eq_mm1 : dot_S1000x512_S512x512_S1000x512_1_0_0_1_n_n
    = Dot2.mmDims 1000 512 512 dot_S1000x512_S512x512_S1000x512_1_0_0_1_n_n_wf := rfl

/-- The body's result at row p, column q of a block: the two products summed over their 512 inputs, added, and clamped below at zero. -/
theorem pay1_apply (x0 x1 : Vec Ideal S1000x512 .f32) (x2 x3 : Vec Ideal S512x512 .f32) (p : Fin 1000) (q : Fin 512) :
    k1_pay1 (F := Ideal) x0 x1 x2 x3 (ix2 p q)
      = max ((∑ k : Fin 512, x0 (ix2 p k) * x2 (ix2 k q)) + ∑ k : Fin 512, x1 (ix2 p k) * x3 (ix2 k q)) 0 := by
  unfold k1_pay1
  rw [maximumf_apply, addf_apply, broadcast_apply, dot_eq_mm1]
  refine congrArg₂ max (congrArg₂ (· + ·) ?_ ?_) ?_
  · refine (Dot2.matmul_zero_mm_apply _ none _ _ p q).trans ?_
    simp only [truncf_apply, shapeCast_self]
  · refine (Dot2.matmul_zero_mm_apply _ none _ _ p q).trans ?_
    simp only [truncf_apply, shapeCast_self]
  · exact Ideal.ofBits_zero_f32

theorem zero_off1 : (![0, 0] : Fin 2 → Nat) = fun _ => 0 := funext fun a => by fin_cases a <;> rfl

/-- The index maps over the grid: the two feature windows and the result window sit at row block t, column block 0; the two weight windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer of blocks: when row p of the two feature blocks is row r of h and of a, and column q of the two weight blocks is column q of ws and of wn, the body's result at (p, q) is the layer at (r, q). -/
theorem block_layer1 (h a : SN.Idx → EReal) (ws wn : SW.Idx → EReal)
    (x0 x1 : Vec Ideal S1000x512 .f32) (x2 x3 : Vec Ideal S512x512 .f32) (p : Fin 1000) (q : Fin 512) (r : Fin 50000)
    (h0 : ∀ k : Fin 512, x0 (ix2 p k) = h (ix2 r k)) (h1 : ∀ k : Fin 512, x1 (ix2 p k) = a (ix2 r k))
    (h2 : ∀ k : Fin 512, x2 (ix2 k q) = ws (ix2 k q)) (h3 : ∀ k : Fin 512, x3 (ix2 k q) = wn (ix2 k q)) :
    k1_pay1 (F := Ideal) x0 x1 x2 x3 (ix2 p q) = layer h a ws wn (ix2 r q) := by
  rw [pay1_apply, layer_apply]
  simp only [h0, h1, h2, h3]

/-- What point t writes back is block t of the layer of the four operand arrays. -/
theorem flushed1_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (layer (V c main_v14) (V c main_v24) (V c main_v26) (V c main_v28)) := by
  show (cfg1.win 4).cut (grid1.coords t) ((dat1 V c).after 4 t) = _
  rw [after1_4]
  unfold out1_4
  rw [View.canon_unit_zero zero_off1]
  simp only [View.ld_unit_zero (S := S1000x512) zero_off1, View.ld_unit_zero (S := S512x512) zero_off1]
  obtain ⟨e00, e01, e10, e11, e20, e21, e30, e31, e40, e41⟩ := idx_facts1 t
  have ht : t.val < 50 := Nat.lt_of_lt_of_eq t.isLt N_1
  funext j
  obtain ⟨p, q, rfl⟩ : ∃ (p : Fin 1000) (q : Fin 512), j = ix2 p q := ⟨j 0, j 1, eq_ix2 j⟩
  have hp : p.val < 1000 := p.isLt
  have hr : t.val * 1000 + p.val < 50000 := by omega
  have hemb : ((cfg1.win 4).blk t).view.emb (ix2 p q) = (ix2 (⟨t.val * 1000 + p.val, hr⟩ : Fin 50000) q : SN.Idx) := by
    funext a; apply Fin.ext
    match a with
    | ⟨0, _⟩ => show win1_4.index t (0 : Fin 2) * 1000 + 1 * p.val = t.val * 1000 + p.val; rw [e40]; omega
    | ⟨1, _⟩ => show win1_4.index t (1 : Fin 2) * 512 + 1 * q.val = q.val; rw [e41]; omega
  show k1_pay1 (F := Ideal) (iblk1 V c 0 t) (iblk1 V c 1 t) (iblk1 V c 2 t) (iblk1 V c 3 t) (ix2 p q)
    = layer (V c main_v14) (V c main_v24) (V c main_v26) (V c main_v28) (((cfg1.win 4).blk t).view.emb (ix2 p q))
  refine (block_layer1 (V c main_v14) (V c main_v24) (V c main_v26) (V c main_v28) _ _ _ _ p q ⟨t.val * 1000 + p.val, hr⟩
    (fun k => ?_) (fun k => ?_) (fun k => ?_) (fun k => ?_)).trans (congrArg _ hemb.symm)
  · show V c main_v14 (((cfg1.win 0).blk t).view.emb (ix2 p k)) = V c main_v14 (ix2 (⟨t.val * 1000 + p.val, hr⟩ : Fin 50000) k)
    refine congrArg _ ?_
    funext a; apply Fin.ext
    match a with
    | ⟨0, _⟩ => show win1_0.index t (0 : Fin 2) * 1000 + 1 * p.val = t.val * 1000 + p.val; rw [e00]; omega
    | ⟨1, _⟩ => show win1_0.index t (1 : Fin 2) * 512 + 1 * k.val = k.val; rw [e01]; omega
  · show V c main_v24 (((cfg1.win 1).blk t).view.emb (ix2 p k)) = V c main_v24 (ix2 (⟨t.val * 1000 + p.val, hr⟩ : Fin 50000) k)
    refine congrArg _ ?_
    funext a; apply Fin.ext
    match a with
    | ⟨0, _⟩ => show win1_1.index t (0 : Fin 2) * 1000 + 1 * p.val = t.val * 1000 + p.val; rw [e10]; omega
    | ⟨1, _⟩ => show win1_1.index t (1 : Fin 2) * 512 + 1 * k.val = k.val; rw [e11]; omega
  · show V c main_v26 (((cfg1.win 2).blk t).view.emb (ix2 k q)) = V c main_v26 (ix2 k q)
    refine congrArg _ ?_
    funext a; apply Fin.ext
    match a with
    | ⟨0, _⟩ => show win1_2.index t (0 : Fin 2) * 512 + 1 * k.val = k.val; rw [e20]; omega
    | ⟨1, _⟩ => show win1_2.index t (1 : Fin 2) * 512 + 1 * q.val = q.val; rw [e21]; omega
  · show V c main_v28 (((cfg1.win 3).blk t).view.emb (ix2 k q)) = V c main_v28 (ix2 k q)
    refine congrArg _ ?_
    funext a; apply Fin.ext
    match a with
    | ⟨0, _⟩ => show win1_3.index t (0 : Fin 2) * 512 + 1 * k.val = k.val; rw [e30]; omega
    | ⟨1, _⟩ => show win1_3.index t (1 : Fin 2) * 512 + 1 * q.val = q.val; rw [e31]; omega

/-- An index of the result array is in point t's block iff each coordinate is in the block's range on its axis. -/
theorem mem_blk1 (t : Fin cfg1.N) (i : S50000x512.Idx) :
    i ∈ ((cfg1.win 4).blk t).view.set ↔ ∀ a : Fin 2, win1_4.index t a * S1000x512.size a ≤ (i a).val ∧ (i a).val < win1_4.index t a * S1000x512.size a + S1000x512.size a := by
  show i ∈ ((View.whole main_v29).slice (win1_4.rect t)).set ↔ _
  rw [View.set_slice_whole, Rect.mem_set_unit]
  exact Iff.rfl

/-- Every row r of the result array is in the block of point r / 1000, which writes back. -/
theorem cover1 (i : S50000x512.Idx) :
    ∃ t : Fin cfg1.N, (cfg1.win 4).flush t = true ∧ i ∈ ((cfg1.win 4).blk t).view.set := by
  have hi0 : (i 0).val < 50000 := (i 0).isLt
  have hi1 : (i 1).val < 512 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 1000 ≤ (i 0).val ∧ (i 0).val < win1_4.index t (0 : Fin 2) * 1000 + 1000; rw [e40, ht]; omega
  | ⟨1, _⟩ => show win1_4.index t (1 : Fin 2) * 512 ≤ (i 1).val ∧ (i 1).val < win1_4.index t (1 : Fin 2) * 512 + 512; rw [e41]; omega

/-- Region 1's result array after the region: the layer applied to the region's four operand arrays as it finds them. -/
theorem region1_arr (V : (c : Dev nD) → (b : Ref sig .tc) → Buf (Elt Ideal) ((c : Thread nD τ).loc b)) (c : Dev nD) :
    (dat1 (F := Ideal) V c).arrAt 4 cfg1.N = layer (V c main_v14) (V c main_v24) (V c main_v26) (V c main_v28) :=
  (dat1 (F := Ideal) V c).arrAt_eq_of_cover 4 (layer (V c main_v14) (V c main_v24) (V c main_v26) (V c main_v28))
    (fun t _ => flushed1_eq V c t) cover1

end Cert.KernelIdeal.Value

end
-- ==== Proof.LibDotNT.lean ====
/-
  A rank-2 matrix product with both operands contracted on their second axis, read at an index,
  at the ideal instance (floats are the extended reals).

  The product of an `[M, K]` array by an `[N, K]` array, the right operand read transposed, is
  written either as the accelerator's multiply-accumulate into an accumulator that is zero
  everywhere, or as the host's general dot product; at the ideal instance both are, at `(p, q)`,
  the sum over the contraction index of the products of the operands' entries, with no rounding
  and no order of summation left in it. The contraction index set of a product with ONE contracted
  axis is a rank-1 index set; re-indexed by its coordinate the sum runs over `Fin K`:
      (l · rᵀ)[p, q] = ∑ k : Fin K, l[p, k] * r[q, k].
-/
import Idealize.ShloMosaic.PureOps.Ideal
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

/-! ## `[M, K] × [N, K] → [M, N]`, the right operand read transposed -/

/-- [M,K] x [N,K] -> [M,N], contracting axis 1 of both (the right operand read transposed), no
    batch axis; the result's axis 0 is the left operand's axis 0 and its axis 1 the right
    operand's axis 0. -/
abbrev ntDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

section NT
variable {M K N : Nat}
  (wf : DotDims.WF ⟨2, ![M, K]⟩ ⟨2, ![N, K]⟩ ⟨2, ![M, N]⟩ [1] [1] [0] [0] [] [])

/-- The left operand's axis 0 is its free axis: its coordinate is the result's row, whatever the
    contraction index. -/
private theorem nt_lhs0 (j : (⟨2, ![M, N]⟩ : Shape).Idx) (k : (ntDims M K N wf).contr.Idx) :
    ((ntDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem nt_lhs1 (j : (⟨2, ![M, N]⟩ : Shape).Idx) (c : Fin K) :
    ((ntDims M K N wf).lhsIdx j ((contrEquiv1 (ntDims M K N wf) K rfl rfl).symm c) 1).val = c.val := by
  rw [(ntDims M K N wf).lhsIdx_val_of_single rfl]
  exact contrEquiv1_symm_val (ntDims M K N wf) K rfl rfl c

/-- The right operand's axis 0 is its free axis: its coordinate is the result's column, whatever
    the contraction index. -/
private theorem nt_rhs0 (j : (⟨2, ![M, N]⟩ : Shape).Idx) (k : (ntDims M K N wf).contr.Idx) :
    ((ntDims M K N wf).rhsIdx j k 0).val = (j 1).val := by
  unfold DotDims.rhsIdx
  rw [dif_neg (show (0 : Fin 2) ∉ ([] : List (Fin 2)) by decide),
    dif_pos (show (0 : Fin 2) ∈ [(0 : Fin 2)] by decide)]
  rfl

/-- The right operand's axis 1 is the contracted one: at the contraction index with coordinate `c`
    its coordinate is `c`. -/
private theorem nt_rhs1 (j : (⟨2, ![M, N]⟩ : Shape).Idx) (c : Fin K) :
    ((ntDims M K N wf).rhsIdx j ((contrEquiv1 (ntDims M K N wf) K rfl rfl).symm c) 1).val = c.val := by
  rw [(ntDims M K N wf).rhsIdx_val_of_single rfl]
  exact contrEquiv1_symm_val (ntDims M K N wf) K rfl rfl c

/-- The contraction's sum at `(p, q)`, over the contraction index set and through the operand
    index maps, is the sum over the contracted coordinate `k : Fin K` of `l[p, k] * r[q, k]`. -/
theorem nt_sum (l : (⟨2, ![M, K]⟩ : Shape).Idx → EReal) (r : (⟨2, ![N, K]⟩ : Shape).Idx → EReal)
    (p : Fin M) (q : Fin N) :
    ∑ k : (ntDims M K N wf).contr.Idx,
        l ((ntDims M K N wf).lhsIdx (ix2 p q) k) * r ((ntDims M K N wf).rhsIdx (ix2 p q) k)
      = ∑ k : Fin K, l (ix2 p k) * r (ix2 q k) := by
  rw [← Equiv.sum_comp (contrEquiv1 (ntDims M K N wf) K rfl rfl).symm]
  refine Finset.sum_congr rfl fun c _ => ?_
  have hl : (ntDims M K N wf).lhsIdx (ix2 p q) ((contrEquiv1 (ntDims M K N wf) K rfl rfl).symm c)
      = ix2 p c := by
    funext a; apply Fin.ext
    match a with
    | ⟨0, _⟩ => exact nt_lhs0 wf (ix2 p q) _
    | ⟨1, _⟩ => exact nt_lhs1 wf (ix2 p q) c
  have hr : (ntDims M K N wf).rhsIdx (ix2 p q) ((contrEquiv1 (ntDims M K N wf) K rfl rfl).symm c)
      = ix2 q c := by
    funext a; apply Fin.ext
    match a with
    | ⟨0, _⟩ => exact nt_rhs0 wf (ix2 p q) _
    | ⟨1, _⟩ => exact nt_rhs1 wf (ix2 p q) c
  rw [hl, hr]

end NT

/-- The accelerator's product of `[M, K]` by `[N, K]` (read transposed) accumulated into the
    all-zero array, at `(p, q)`: `∑ k, l[p, k] * r[q, k]` in the extended reals. -/
theorem matmul_zero_nt_apply {M K N : Nat} {φ₁ φ₂ : FTy}
    (wf : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    FloatOps.matmul (ntDims M K N wf) prec l r (constant ⟨2, ![M, N]⟩ .f32 0x00000000#32) (ix2 p q)
      = ∑ k : Fin K, l (ix2 p k) * r (ix2 q k) := by
  rw [Ideal.matmul_constant_zero_apply]
  exact nt_sum wf l r p q

/-- The host's general dot product of `[M, K]` by `[N, K]` (read transposed), at `(p, q)`,
    whatever its schedule: `∑ k, l[p, k] * r[q, k]` in the extended reals. -/
theorem dotGeneral_nt_apply {M K N : Nat} {φ₁ φ₂ : FTy}
    (wf : DotDims.WF ⟨2, ![M, K]⟩ ⟨2, ![N, K]⟩ ⟨2, ![M, N]⟩ [1] [1] [0] [0] [] [])
    (prec : Option ContractPrecision) (sched : HostSchedule)
    (l : FVec Ideal ⟨2, ![M, K]⟩ φ₁) (r : FVec Ideal ⟨2, ![N, K]⟩ φ₂) (p : Fin M) (q : Fin N) :
    FloatOps.dotGeneral (ntDims M K N wf) prec sched l r (ix2 p q)
      = ∑ k : Fin K, l (ix2 p k) * r (ix2 q k) := by
  rw [Ideal.dotGeneral_apply]
  exact nt_sum wf l r p q

/-- The same for the host's product as a one-device program states it (the single-device
    schedule): at `(p, q)` it is `∑ k, l[p, k] * r[q, k]`. -/
theorem host_dotGeneral_nt_apply {M K N : Nat} {φ₁ φ₂ : FTy}
    (wf : DotDims.WF ⟨2, ![M, K]⟩ ⟨2, ![N, K]⟩ ⟨2, ![M, N]⟩ [1] [1] [0] [0] [] [])
    (prec : Option ContractPrecision)
    (l : FVec Ideal ⟨2, ![M, K]⟩ φ₁) (r : FVec Ideal ⟨2, ![N, K]⟩ φ₂) (p : Fin M) (q : Fin N) :
    Host.dotGeneral (ntDims M K N wf) prec l r (ix2 p q)
      = ∑ k : Fin K, l (ix2 p k) * r (ix2 q k) :=
  dotGeneral_nt_apply wf prec .single l r p q

end Idealize.ShloMosaic.DotNT

end
-- ==== Proof.Region2.lean ====
import proofs.«146143_j43654047596868_1_alg».proof.Proof.Gen.KernelIdeal.Frame
import proofs.«146143_j43654047596868_1_alg».proof.Proof.Spec
import proofs.«146143_j43654047596868_1_alg».proof.Proof.LibDotNT
import Idealize.ShloMosaic.Lib.Pipeline.Value
import Idealize.ShloMosaic.Lib.ValueIdx
import Idealize.ShloMosaic.Lib.Tactic
import Idealize.ShloMosaic.PureOps.Ideal.Laws
import Mathlib.Algebra.BigOperators.Fin

/-!
  The projection kernel's result array, over the extended reals.

  The grid has 50 points. Point `t` reads columns `512000 t … 512000 t + 511999` of the flattened
  features ([1, 25600000]) and of the weights ([2, 25600000]) and adds, into one [1, 2] block that
  stays in place across the points, the block product
      acc[0, q] + ∑ₖ f[0, 512000 t + k] · w[q, 512000 t + k];
  the first point starts from the zero block, and the block is written back once, after the last
  point. By induction on the point the block holds after point `n` the sum of the summands over the
  first `512000 (n + 1)` positions (a finite sum split at a position, and `0 + x = x`); after
  point 49 that is the sum over all 25600000 positions, the projection `fcSum`.
-/

noncomputable section

open scoped BigOperators

namespace Cert.KernelIdeal.Value

open Idealize.ShloMosaic Idealize.ShloMosaic.TcCoe Idealize.SL.Sem Idealize.ShloMosaic.Tactic
open Idealize.ShloMosaic.ValueIdx
open Idealize.ShloMosaic.Pipeline (Dat)
open Cert.KernelIdeal Cert.KernelIdeal.Gen Cert.Sage

/-- The offset of a whole-block access: zero on both axes. -/
theorem hz2 : (![0, 0] : Fin 2 → Nat) = fun _ => 0 := funext fun a => by fin_cases a <;> rfl

section Cases
variable {F : FTy → Type} [FloatOps F]

/-- At a point after the first, the body leaves in the result's block the running block plus the
    product of the two input blocks: its one store covers the block and its loads read whole blocks. -/
theorem out2_B (c : Dev nD) (i : grid2.Coords) (a1 : Memref sig .tc .vmem S1x512000 .f32) (h1 : a1.IsWhole)
    (a2 : Memref sig .tc .vmem S2x512000 .f32) (h2 : a2.IsWhole) (a3 : Memref sig .tc .vmem S1x2 .f32) (h3 : a3.IsWhole)
    (hc : ¬cond2_0 i) (x0 : Vec F S1x512000 .f32) (x1 : Vec F S2x512000 .f32) (xo : Vec F S1x2 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz2]
  simp only [View.readAt_eq_ld, h1.read_unread, h2.read_unread, h3.read_unread,
    View.ld_unit_zero (S := S1x512000) hz2, View.ld_unit_zero (S := S2x512000) hz2,
    View.ld_unit_zero (S := S1x2) hz2]

/-- At the first point the body stores the zero block, reads it back, and leaves the zero block
    plus the product of the two input blocks: the later store covers the earlier one. -/
theorem out2_A (c : Dev nD) (i : grid2.Coords) (a1 : Memref sig .tc .vmem S1x512000 .f32) (h1 : a1.IsWhole)
    (a2 : Memref sig .tc .vmem S2x512000 .f32) (h2 : a2.IsWhole) (a3 : Memref sig .tc .vmem S1x2 .f32) (h3 : a3.IsWhole)
    (hc : cond2_0 i) (x0 : Vec F S1x512000 .f32) (x1 : Vec F S2x512000 .f32) :
    out2_A_2 c i a1 h1 a2 h2 a3 h3 hc x0 x1 = k2_pay2 x0 x1 k2_pay1 := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1x2) hz2, View.readCov_unit_zero (S := S1x2) _ hz2]
  simp only [View.readAt_eq_ld, h1.read_unread, h2.read_unread,
    View.ld_unit_zero (S := S1x512000) hz2, View.ld_unit_zero (S := S2x512000) hz2]

end Cases

/-- The body's update at an index, over the extended reals: the running entry plus the sum over
    the block's 512000 columns of feature times weight. -/
theorem pay2_apply (x0 : Vec Ideal S1x512000 .f32) (x1 : Vec Ideal S2x512000 .f32) (xo : Vec Ideal S1x2 .f32)
    (p : Fin 1) (q : Fin 2) :
    k2_pay2 (F := Ideal) x0 x1 xo (ix2 p q) = xo (ix2 p q) + ∑ k : Fin 512000, x0 (ix2 p k) * x1 (ix2 q k) := by
  unfold k2_pay2
  rw [addf_apply, shapeCast_self, shapeCast_self]
  show _ + FloatOps.matmul (DotNT.ntDims 1 512000 2 dot_S1x512000_S2x512000_S1x2_1_1_0_0_n_n_wf) none _ _
      (constant ⟨2, ![1, 2]⟩ .f32 0x00000000#32) (ix2 p q) = _
  rw [DotNT.matmul_zero_nt_apply]
  rfl

/-- The block the reset stores is zero at every index. -/
theorem payZero_apply (j : S1x2.Idx) : k2_pay1 (F := Ideal) j = 0 := Ideal.ofBits_zero_f32

section Region
variable (V : (c : Dev nD) → (b : Ref sig .tc) → Buf (Elt Ideal) ((c : Thread nD τ).loc b))

/-- The flattened features as the region finds them. -/
abbrev fArr (c : Dev nD) : SF.Idx → EReal := V c main_v30
/-- The projection's weights as the region finds them. -/
abbrev wArr (c : Dev nD) : SFW.Idx → EReal := V c main_arg5

/-- The feature block of point `t`. -/
abbrev fblk (c : Dev nD) (t : Fin cfg2.N) : Vec Ideal S1x512000 .f32 := iblk2 V c 0 t
/-- The weight block of point `t`. -/
abbrev wblk (c : Dev nD) (t : Fin cfg2.N) : Vec Ideal S2x512000 .f32 := iblk2 V c 1 t

/-- The feature window's block index at point `t` is `(0, t)`. -/
theorem index2_0 : ∀ t : Fin cfg2.N, win2_0.index t 0 = 0 ∧ win2_0.index t 1 = t.val :=
  (by decide +kernel : ∀ t : Fin grid2.N, win2_0.index t 0 = 0 ∧ win2_0.index t 1 = t.val)
/-- The weight window's block index at point `t` is `(0, t)`. -/
theorem index2_1 : ∀ t : Fin cfg2.N, win2_1.index t 0 = 0 ∧ win2_1.index t 1 = t.val :=
  (by decide +kernel : ∀ t : Fin grid2.N, win2_1.index t 0 = 0 ∧ win2_1.index t 1 = t.val)

/-- A column of a block, counted from the start of the flattened axis, is one of its 25600000 positions. -/
theorem col_lt (t : Fin cfg2.N) (k : Fin 512000) : t.val * 512000 + k.val < 25600000 := by
  have hN : t.val < 50 := lt_of_lt_of_eq t.isLt (show cfg2.N = 50 from N_2)
  have := k.isLt
  omega

/-- Column `k` of the feature block of point `t` is column `512000 t + k` of the features. -/
theorem fblk_apply (c : Dev nD) (t : Fin cfg2.N) (k : Fin 512000) :
    fblk V c t (ix2 (0 : Fin 1) k) = fArr V c (ix2 (0 : Fin 1) ⟨t.val * 512000 + k.val, col_lt t k⟩) := by
  show iblk2 V c 0 t (ix2 (0 : Fin 1) k) = _
  unfold iblk2
  rw [View.read_apply]
  show V c main_v30 _ = V c main_v30 _
  congr 1
  funext a
  apply Fin.ext
  match a with
  | ⟨0, _⟩ => show win2_0.index t 0 * 1 + 1 * 0 = 0; rw [(index2_0 t).1]
  | ⟨1, _⟩ => show win2_0.index t 1 * 512000 + 1 * k.val = t.val * 512000 + k.val; rw [(index2_0 t).2]; omega

/-- Row `q`, column `k` of the weight block of point `t` is row `q`, column `512000 t + k` of the weights. -/
theorem wblk_apply (c : Dev nD) (t : Fin cfg2.N) (q : Fin 2) (k : Fin 512000) :
    wblk V c t (ix2 q k) = wArr V c (ix2 q ⟨t.val * 512000 + k.val, col_lt t k⟩) := by
  show iblk2 V c 1 t (ix2 q k) = _
  unfold iblk2
  rw [View.read_apply]
  show V c main_arg5 _ = V c main_arg5 _
  congr 1
  funext a
  apply Fin.ext
  match a with
  | ⟨0, _⟩ => show win2_1.index t 0 * 2 + 1 * q.val = q.val; rw [(index2_1 t).1]; omega
  | ⟨1, _⟩ => show win2_1.index t 1 * 512000 + 1 * k.val = t.val * 512000 + k.val; rw [(index2_1 t).2]; omega

/-- The summand of logit `q` at flattened position `i`, extended by zero past the last position. -/
def term (c : Dev nD) (q : Fin 2) (i : ℕ) : EReal :=
  if h : i < 25600000 then fArr V c (ix2 (0 : Fin 1) ⟨i, h⟩) * wArr V c (ix2 q ⟨i, h⟩) else 0

/-- The product of the two blocks of point `t` at logit `q` is the sum of the summands at the
    512000 positions from `512000 t` on. -/
theorem blk_sum (c : Dev nD) (t : Fin cfg2.N) (q : Fin 2) :
    ∑ k : Fin 512000, fblk V c t (ix2 (0 : Fin 1) k) * wblk V c t (ix2 q k)
      = ∑ k ∈ Finset.range 512000, term V c q (t.val * 512000 + k) := by
  rw [← Fin.sum_univ_eq_sum_range (fun k => term V c q (t.val * 512000 + k)) 512000]
  refine Finset.sum_congr rfl fun k _ => ?_
  rw [fblk_apply, wblk_apply]
  unfold term
  rw [dif_pos (col_lt t k)]

/-- After point `n` the result's block holds, at logit `q`, the sum of the summands at the first
    `512000 (n + 1)` positions: by induction on the point. -/
theorem outsAt2_eq (c : Dev nD) : ∀ (n : ℕ) (h : n < cfg2.N) (q : Fin 2),
    outsAt2 (F := Ideal) V c n h (ix2 (0 : Fin 1) q) = ∑ i ∈ Finset.range ((n + 1) * 512000), term V c q i
  | 0, h, q => by
    rw [outsAt2_A V c ⟨0, h⟩ rfl, out2_A, pay2_apply, payZero_apply, zero_add]
    show ∑ k : Fin 512000, fblk V c ⟨0, h⟩ (ix2 (0 : Fin 1) k) * wblk V c ⟨0, h⟩ (ix2 q k) = _
    rw [blk_sum]
    refine Finset.sum_congr (by rw [Nat.zero_add, Nat.one_mul]) fun k _ => ?_
    show term V c q (0 * 512000 + k) = _
    rw [Nat.zero_mul, Nat.zero_add]
  | n + 1, h, q => by
    have hN : cfg2.N = 50 := N_2
    have hB : ¬(⟨n + 1, h⟩ : Fin cfg2.N).val % 50 = 0 := by dsimp only; omega
    rw [outsAt2_B V c ⟨n + 1, h⟩ hB, out2_B, pay2_apply]
    show outsAt2 V c n _ (ix2 (0 : Fin 1) q)
      + ∑ k : Fin 512000, fblk V c ⟨n + 1, h⟩ (ix2 (0 : Fin 1) k) * wblk V c ⟨n + 1, h⟩ (ix2 q k) = _
    rw [outsAt2_eq c n _ q, blk_sum,
      show (n + 1 + 1) * 512000 = (n + 1) * 512000 + 512000 by omega, Finset.sum_range_add]

/-- The last point. -/
abbrev tLast : Fin cfg2.N := ⟨49, by rw [show cfg2.N = 50 from N_2]; decide⟩

/-- After the last point the result's block is the projection over all 25600000 positions. -/
theorem outsAt2_last (c : Dev nD) :
    outsAt2 (F := Ideal) V c tLast.val tLast.isLt = fcSum (V c main_v30) (V c main_arg5) := by
  funext j
  obtain ⟨p, q, rfl⟩ : ∃ (p : Fin 1) (q : Fin 2), j = ix2 p q := ⟨j 0, j 1, eq_ix2 j⟩
  obtain rfl : p = 0 := Subsingleton.elim _ _
  rw [fcSum_apply]
  show outsAt2 V c 49 _ (ix2 (0 : Fin 1) q) = _
  rw [outsAt2_eq, show (49 + 1) * 512000 = 25600000 by norm_num,
    ← Fin.sum_univ_eq_sum_range (fun i => term V c q i) 25600000]
  refine Finset.sum_congr rfl fun i _ => ?_
  unfold term
  rw [dif_pos i.isLt]

/-- The one write-back, after the last point, writes the projection: block (0, 0) of the [1, 2]
    array read through zero offsets is the array. -/
theorem flushed2_eq (c : Dev nD) (t : Fin cfg2.N) (hf : (cfg2.win 2).flush t = true) :
    (dat2 (F := Ideal) V c).flushed 2 t
      = ((cfg2.win 2).blk t).view.read (Elt Ideal) (fcSum (V c main_v30) (V c main_arg5)) := by
  have hN : cfg2.N = 50 := N_2
  have h49 : t.val = 49 := by have := (flush2_2 t).mp hf; have := t.isLt; omega
  obtain rfl : t = tLast := Fin.ext h49
  show (cfg2.win 2).cut (grid2.coords tLast) ((dat2 (F := Ideal) V c).after 2 tLast) = _
  rw [after2_2, outsAt2_last]
  have hz' : (fun a => win2_2.index tLast a * main_v31.ty.shape.size a) = fun _ => 0 :=
    funext fun a => by fin_cases a <;> decide +kernel
  exact (Memref.read_access_unit_zero (Elt Ideal) main_v31 hz' (fun a => by rw [congrFun hz' a]; simp)
    (fcSum (V c main_v30) (V c main_arg5))).symm

end Region

/-- Region 2's result array after the region: the projection of the flattened features by the weights, summed over all 50 blocks. -/
theorem region2_arr (V : (c : Dev nD) → (b : Ref sig .tc) → Buf (Elt Ideal) ((c : Thread nD τ).loc b)) (c : Dev nD) :
    (dat2 (F := Ideal) V c).arrAt 2 cfg2.N = fcSum (V c main_v30) (V c main_arg5) :=
  (dat2 (F := Ideal) V c).arrAt_eq_of_cover 2 (fcSum (V c main_v30) (V c main_arg5)) (flushed2_eq V c) fun i =>
    ⟨tLast, (flush2_2 tLast).mpr rfl, by
      show i ∈ ((View.whole main_v31).slice (win2_2.rect tLast)).set
      rw [View.set_slice_whole, Rect.mem_set_unit]
      intro a
      have h0 : (i 0 : Nat) < 1 := (i 0).isLt
      have h1 : (i 1 : Nat) < 2 := (i 1).isLt
      match a with
      | ⟨0, _⟩ =>
        show win2_2.index tLast 0 * win2_2.size 0 ≤ (i 0 : Nat)
          ∧ (i 0 : Nat) < win2_2.index tLast 0 * win2_2.size 0 + win2_2.xsize (grid2.coords tLast) 0
        rw [show win2_2.index tLast 0 * win2_2.size 0 = 0 from by decide +kernel,
          show win2_2.xsize (grid2.coords tLast) 0 = 1 from by decide +kernel]
        omega
      | ⟨1, _⟩ =>
        show win2_2.index tLast 1 * win2_2.size 1 ≤ (i 1 : Nat)
          ∧ (i 1 : Nat) < win2_2.index tLast 1 * win2_2.size 1 + win2_2.xsize (grid2.coords tLast) 1
        rw [show win2_2.index tLast 1 * win2_2.size 1 = 0 from by decide +kernel,
          show win2_2.xsize (grid2.coords tLast) 1 = 2 from by decide +kernel]
        omega⟩

end Cert.KernelIdeal.Value

end
-- ==== Proof.Fold.lean ====
/-
  The two result arrays of the kernel's program as functions of its seven inputs.

  The program is three kernel regions among stretches of host operations. Walking the buffer contents
  from the launch to the return: the first stretch computes the neighbour mean of the inputs and lays the
  first layer's weight matrix out as two input-major blocks; region 0 leaves the first layer's features;
  the second stretch does the same over those features and the second weight matrix; region 1 leaves the
  second layer's features; they are flattened; region 2 leaves their projection; the last stretches add
  the bias and take the log-softmax. Each argument array is read where it was launched.
-/
import proofs.«146143_j43654047596868_1_alg».proof.Proof.ValueRun
import proofs.«146143_j43654047596868_1_alg».proof.Proof.KSpec
import proofs.«146143_j43654047596868_1_alg».proof.Proof.Region0
import proofs.«146143_j43654047596868_1_alg».proof.Proof.Region1
import proofs.«146143_j43654047596868_1_alg».proof.Proof.Region2
import Idealize.ShloMosaic.Lib.StableHlo.Run
import Idealize.ShloMosaic.Lib.Pipeline.Value

set_option maxRecDepth 16384

noncomputable section

namespace Cert.KernelIdeal.Value

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.KSpec Cert.Sage

/-! ## A weight matrix's two halves, transposed -/

/-- The first 512 columns of `W`, transposed: `[k, o] ↦ W[o, k]`. -/
theorem transpose_slice_self (W : Wts) :
    transpose S512x512 [1, 0] (extractStridedSlice S512x512 ![0, 0] W slices_S512x1024_S512x512_0_0) transposes_S512x512_S512x512_1_0
      = selfT W := by
  funext i
  rw [transpose_apply [1, 0] _ transposes_S512x512_S512x512_1_0 i
    (fun a => match a with | ⟨0, _⟩ => ⟨(i 1).val, (i 1).isLt⟩ | ⟨1, _⟩ => ⟨(i 0).val, (i 0).isLt⟩)
    (fun b => match b with | ⟨0, _⟩ => rfl | ⟨1, _⟩ => rfl)]
  unfold extractStridedSlice selfT
  refine congrArg W (funext fun a => Fin.ext ?_)
  match a with
  | ⟨0, _⟩ => show 0 + (i 1).val = (i 1).val; omega
  | ⟨1, _⟩ => show 0 + (i 0).val = (i 0).val; omega

/-- The last 512 columns of `W`, transposed: `[k, o] ↦ W[o, 512 + k]`. -/
theorem transpose_slice_neigh (W : Wts) :
    transpose S512x512 [1, 0] (extractStridedSlice S512x512 ![0, 512] W slices_S512x1024_S512x512_0_512) transposes_S512x512_S512x512_1_0
      = neighT W := by
  funext i
  rw [transpose_apply [1, 0] _ transposes_S512x512_S512x512_1_0 i
    (fun a => match a with | ⟨0, _⟩ => ⟨(i 1).val, (i 1).isLt⟩ | ⟨1, _⟩ => ⟨(i 0).val, (i 0).isLt⟩)
    (fun b => match b with | ⟨0, _⟩ => rfl | ⟨1, _⟩ => rfl)]
  unfold extractStridedSlice neighT
  refine congrArg W (funext fun a => Fin.ext ?_)
  match a with
  | ⟨0, _⟩ => show 0 + (i 1).val = (i 1).val; omega
  | ⟨1, _⟩ => show 512 + (i 0).val = 512 + (i 0).val; rfl

variable (m : (ℓ : Loc nD τ sig) → Buf (Elt Ideal) ℓ) (ρ : Dev nD → PrngReg)

/-! ## Up to region 0 -/

theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]; after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  dsimp only [hostOps0]; after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results <;> rfl

/-- Region 0's second operand: the neighbour mean of the input features. -/
theorem W1_v9 (c : Dev nD) : W1 m ρ c (Proc.devRef .tc main_v9) = agg (m ((c : Thread nD τ).loc main_arg0)) (m ((c : Thread nD τ).loc main_arg1)) := by
  show StableHlo.after hostOps0 (W0 m ρ c) (Proc.devRef .tc main_v9) = _
  dsimp only [hostOps0]; after_results <;> rfl

/-- Region 0's third and fourth operands: the first weight matrix's two blocks, input-major. -/
theorem W1_v11 (c : Dev nD) : W1 m ρ c (Proc.devRef .tc main_v11) = selfT (m ((c : Thread nD τ).loc main_arg3)) := by
  refine Eq.trans ?_ (transpose_slice_self (m ((c : Thread nD τ).loc main_arg3)))
  show StableHlo.after hostOps0 (W0 m ρ c) (Proc.devRef .tc main_v11) = _
  dsimp only [hostOps0]; after_results <;> rfl
theorem W1_v13 (c : Dev nD) : W1 m ρ c (Proc.devRef .tc main_v13) = neighT (m ((c : Thread nD τ).loc main_arg3)) := by
  refine Eq.trans ?_ (transpose_slice_neigh (m ((c : Thread nD τ).loc main_arg3)))
  show StableHlo.after hostOps0 (W0 m ρ c) (Proc.devRef .tc main_v13) = _
  dsimp only [hostOps0]; after_results <;> rfl

/-! ## Region 0 -/

/-- After region 0 its result array holds the first layer's features. -/
theorem W2_v14 (c : Dev nD) : W2 m ρ c (Proc.devRef .tc main_v14) = L1 (m ((c : Thread nD τ).loc main_arg0)) (m ((c : Thread nD τ).loc main_arg1)) (m ((c : Thread nD τ).loc main_arg3)) := by
  refine (W2_arr m ρ c 4).trans ?_
  rw [region0_arr (V1 m ρ) c]
  show layer (W1 m ρ c (Proc.devRef .tc main_arg0)) (W1 m ρ c (Proc.devRef .tc main_v9)) (W1 m ρ c (Proc.devRef .tc main_v11))
    (W1 m ρ c (Proc.devRef .tc main_v13)) = _
  rw [W1_arg0, W1_v9, W1_v11, W1_v13]; rfl

theorem W2_arg2 (c : Dev nD) : W2 m ρ c (Proc.devRef .tc main_arg2) = m ((c : Thread nD τ).loc main_arg2) :=
  (W2_of_ne m ρ c main_arg2 (by decide)).trans (W1_arg2 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-! ## Up to region 1 -/

theorem W3_v14 (c : Dev nD) : W3 m ρ c (Proc.devRef .tc main_v14) = W2 m ρ c (Proc.devRef .tc main_v14) := by
  show StableHlo.after hostOps1 (W2 m ρ c) (Proc.devRef .tc main_v14) = _
  dsimp only [hostOps1]; after_results
theorem W3_arg5 (c : Dev nD) : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  dsimp only [hostOps1]; after_results
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  dsimp only [hostOps1]; after_results

/-- Region 1's second operand: the neighbour mean of the first layer's features. -/
theorem W3_v24 (c : Dev nD) : W3 m ρ c (Proc.devRef .tc main_v24)
    = agg (L1 (m ((c : Thread nD τ).loc main_arg0)) (m ((c : Thread nD τ).loc main_arg1)) (m ((c : Thread nD τ).loc main_arg3))) (m ((c : Thread nD τ).loc main_arg2)) := by
  rw [← W2_v14 m ρ c, ← W2_arg2 m ρ c]
  show StableHlo.after hostOps1 (W2 m ρ c) (Proc.devRef .tc main_v24) = _
  dsimp only [hostOps1]; after_results <;> rfl

theorem W3_v26 (c : Dev nD) : W3 m ρ c (Proc.devRef .tc main_v26) = selfT (m ((c : Thread nD τ).loc main_arg4)) := by
  refine Eq.trans ?_ (transpose_slice_self (m ((c : Thread nD τ).loc main_arg4)))
  rw [← W2_arg4 m ρ c]
  show StableHlo.after hostOps1 (W2 m ρ c) (Proc.devRef .tc main_v26) = _
  dsimp only [hostOps1]; after_results <;> rfl
theorem W3_v28 (c : Dev nD) : W3 m ρ c (Proc.devRef .tc main_v28) = neighT (m ((c : Thread nD τ).loc main_arg4)) := by
  refine Eq.trans ?_ (transpose_slice_neigh (m ((c : Thread nD τ).loc main_arg4)))
  rw [← W2_arg4 m ρ c]
  show StableHlo.after hostOps1 (W2 m ρ c) (Proc.devRef .tc main_v28) = _
  dsimp only [hostOps1]; after_results <;> rfl

/-! ## Region 1 -/

/-- After region 1 its result array holds the second layer's features. -/
theorem W4_v29 (c : Dev nD) : W4 m ρ c (Proc.devRef .tc main_v29)
    = L2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 4).trans ?_
  rw [region1_arr (V3 m ρ) c]
  show layer (W3 m ρ c (Proc.devRef .tc main_v14)) (W3 m ρ c (Proc.devRef .tc main_v24)) (W3 m ρ c (Proc.devRef .tc main_v26))
    (W3 m ρ c (Proc.devRef .tc main_v28)) = _
  rw [W3_v14, W2_v14, W3_v24, W3_v26, W3_v28]; rfl

theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## The flattening, and region 2 -/

theorem W5_v30 (c : Dev nD) : W5 m ρ c (Proc.devRef .tc main_v30)
    = out0 (m ((c : Thread nD τ).loc main_arg0)) (m ((c : Thread nD τ).loc main_arg1)) (m ((c : Thread nD τ).loc main_arg2)) (m ((c : Thread nD τ).loc main_arg3)) (m ((c : Thread nD τ).loc main_arg4)) := by
  unfold out0
  rw [← W4_v29 m ρ c]
  show StableHlo.after hostOps2 (W4 m ρ c) (Proc.devRef .tc main_v30) = _
  dsimp only [hostOps2]; after_results <;> rfl
theorem W5_arg5 (c : Dev nD) : W5 m ρ c (Proc.devRef .tc main_arg5) = m ((c : Thread nD τ).loc main_arg5) := by
  refine Eq.trans ?_ (W4_arg5 m ρ c)
  show StableHlo.after hostOps2 (W4 m ρ c) (Proc.devRef .tc main_arg5) = _
  dsimp only [hostOps2]; after_results
theorem W5_arg6 (c : Dev nD) : W5 m ρ c (Proc.devRef .tc main_arg6) = m ((c : Thread nD τ).loc main_arg6) := by
  refine Eq.trans ?_ (W4_arg6 m ρ c)
  show StableHlo.after hostOps2 (W4 m ρ c) (Proc.devRef .tc main_arg6) = _
  dsimp only [hostOps2]; after_results

/-- After region 2 its result array holds the projection of the flattened features. -/
theorem W6_v31 (c : Dev nD) : W6 m ρ c (Proc.devRef .tc main_v31)
    = fcSum (out0 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) := by
  refine (W6_arr m ρ c 2).trans ?_
  rw [region2_arr (V5 m ρ) c]
  show fcSum (W5 m ρ c (Proc.devRef .tc main_v30)) (W5 m ρ c (Proc.devRef .tc main_arg5)) = _
  rw [W5_v30, W5_arg5]

/-- Region 2 only reads the flattened features. -/
theorem W6_v30 (c : Dev nD) : W6 m ρ c (Proc.devRef .tc main_v30)
    = out0 (m ((c : Thread nD τ).loc main_arg0)) (m ((c : Thread nD τ).loc main_arg1)) (m ((c : Thread nD τ).loc main_arg2)) (m ((c : Thread nD τ).loc main_arg3)) (m ((c : Thread nD τ).loc main_arg4)) :=
  ((W6_arr m ρ c 0).trans (((dat2 (V5 m ρ) c).arrAt_in 0 rfl _).trans (A_eq2 (V5 m ρ) c 0))).trans (W5_v30 m ρ c)
theorem W6_arg6 (c : Dev nD) : W6 m ρ c (Proc.devRef .tc main_arg6) = m ((c : Thread nD τ).loc main_arg6) :=
  (W6_of_ne m ρ c main_arg6 (by decide)).trans (W5_arg6 m ρ c)

/-! ## The bias and the log-softmax -/

theorem W7_v33 (c : Dev nD) : W7 m ρ c (Proc.devRef .tc main_v33)
    = addf (F := Ideal) (fcSum (out0 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (biasRow (m ((c : Thread nD τ).loc main_arg6))) := by
  rw [← W6_v31 m ρ c, ← W6_arg6 m ρ c]
  show StableHlo.after hostOps3 (W6 m ρ c) (Proc.devRef .tc main_v33) = _
  dsimp only [hostOps3]; after_results <;> rfl
theorem W7_v30 (c : Dev nD) : W7 m ρ c (Proc.devRef .tc main_v30) = W6 m ρ c (Proc.devRef .tc main_v30) := by
  show StableHlo.after hostOps3 (W6 m ρ c) (Proc.devRef .tc main_v30) = _
  dsimp only [hostOps3]; after_results

/-- The first result: the flattened second-layer features. -/
theorem W8_v30 (c : Dev nD) : W8 m ρ c (Proc.devRef .tc main_v30)
    = out0 (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans ?_ ((W7_v30 m ρ c).trans (W6_v30 m ρ c))
  show StableHlo.after hostOps3_1 (W7 m ρ c) (Proc.devRef .tc main_v30) = _
  dsimp only [hostOps3_1]; after_results

/-- The second result: the log-probabilities. -/
theorem W8_v34 (c : Dev nD) : W8 m ρ c (Proc.devRef .tc main_v34)
    = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold out1
  rw [← W7_v33 m ρ c]
  show StableHlo.after hostOps3_1 (W7 m ρ c) (Proc.devRef .tc main_v34) = _
  dsimp only [hostOps3_1]; after_results <;> rfl

/-- The kernel program's run with both results as functions of the inputs. -/
theorem run : θ_run defs (onTc (τ := τ) (main (F := Ideal))) ⟨m, fun _ => 0, ρ⟩ (fun r => ∀ c : Dev nD,
      r.2.mem ((c.tc : Thread nD τ).loc main_v30) = out0 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v34) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W8_v30 m ρ c), (h c).2.1.trans (W8_v34 m ρ c), (h c).2.2⟩) (run_named m ρ)

end Cert.KernelIdeal.Value

end
-- ==== Proof.RefRunStages.lean ====
/-
  The reference program's run, read in six stretches.

  The program is sixty operations in a row. In order they fall into six stretches: the neighbour mean of
  the inputs; the first layer (join, transposed weights, product, rectifier); the neighbour mean of the
  first layer's features; the second layer; the flattening, the projection and the bias; the log-softmax.
  After each stretch the array it ends on holds that stage as a function of the seven inputs, and every
  input array holds what it was launched with. Hence every execution ends with the two results at the
  stage functions of the inputs and the inputs unchanged.
-/
import proofs.«146143_j43654047596868_1_alg».proof.Proof.RefRun
import proofs.«146143_j43654047596868_1_alg».proof.Proof.RefRead
import Idealize.ShloMosaic.Lib.StableHlo.Run
import Idealize.ShloMosaic.Lib.Pipeline.Frame

noncomputable section

namespace Cert.ReferenceIdeal.RunStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The sixty operations in six stretches -/

/-- The neighbour mean of the inputs. -/
abbrev opsA : List (HloOp τ sig (Elt F)) :=
  [ nullary main_c (constantI S_ 32 0#32),
    unary main_c main_v0 (broadcastInDim S50000x2 ![] bcast_S_S50000x2 : (⟨S_, .i32⟩ : BufTy).Contents (Elt F) → (⟨S50000x2, .i32⟩ : BufTy).Contents (Elt F)),
    binary main_arg1 main_v0 main_v1 (cmpi .slt : (⟨S50000x2, .i32⟩ : BufTy).Contents (Elt F) → (⟨S50000x2, .i32⟩ : BufTy).Contents (Elt F) → (⟨S50000x2, .i1⟩ : BufTy).Contents (Elt F)),
    nullary main_c_0 (constantI S_ 32 50000#32),
    unary main_c_0 main_v2 (broadcastInDim S50000x2 ![] bcast_S_S50000x2 : (⟨S_, .i32⟩ : BufTy).Contents (Elt F) → (⟨S50000x2, .i32⟩ : BufTy).Contents (Elt F)),
    binary main_arg1 main_v2 main_v3 (addi : (⟨S50000x2, .i32⟩ : BufTy).Contents (Elt F) → (⟨S50000x2, .i32⟩ : BufTy).Contents (Elt F) → (⟨S50000x2, .i32⟩ : BufTy).Contents (Elt F)),
    ternary main_v1 main_v3 main_arg1 main_v4 (select : (⟨S50000x2, .i1⟩ : BufTy).Contents (Elt F) → (⟨S50000x2, .i32⟩ : BufTy).Contents (Elt F) → (⟨S50000x2, .i32⟩ : BufTy).Contents (Elt F) → (⟨S50000x2, .i32⟩ : BufTy).Contents (Elt F)),
    unary main_v4 main_v5 (broadcastInDim S50000x2x1 ![0, 1] bcast_S50000x2_S50000x2x1_0_1 : (⟨S50000x2, .i32⟩ : BufTy).Contents (Elt F) → (⟨S50000x2x1, .i32⟩ : BufTy).Contents (Elt F)),
    binary main_arg0 main_v5 main_v6 ((fun x i => Host.gather gather_S50000x512_S50000x2x1_S50000x2x512_2_0_n_n_0_2_1512 x i) : (⟨S50000x512, .f32⟩ : BufTy).Contents (Elt F) → (⟨S50000x2x1, .i32⟩ : BufTy).Contents (Elt F) → (⟨S50000x2x512, .f32⟩ : BufTy).Contents (Elt F)),
    nullary main_cst (constant S_ .f32 0x00000000#32),
    binary main_v6 main_cst main_v7 ((fun x v => Host.reduceAdd x v reducesTo_S50000x2x512_S50000x512_d1 h_S_) : (⟨S50000x2x512, .f32⟩ : BufTy).Contents (Elt F) → (⟨S_, .f32⟩ : BufTy).Contents (Elt F) → (⟨S50000x512, .f32⟩ : BufTy).Contents (Elt F)),
    nullary main_cst_1 (constant S_ .f32 0x40000000#32),
    unary main_cst_1 main_v8 (broadcastInDim S50000x512 ![] bcast_S_S50000x512 : (⟨S_, .f32⟩ : BufTy).Contents (Elt F) → (⟨S50000x512, .f32⟩ : BufTy).Contents (Elt F)),
    binary main_v7 main_v8 main_v9 (Host.divf : (⟨S50000x512, .f32⟩ : BufTy).Contents (Elt F) → (⟨S50000x512, .f32⟩ : BufTy).Contents (Elt F) → (⟨S50000x512, .f32⟩ : BufTy).Contents (Elt F)) ]

/-- The first layer: join, transposed weights, product, rectifier. -/
abbrev opsB : List (HloOp τ sig (Elt F)) :=
  [ binary main_arg0 main_v9 main_v10 ((fun a b => concatenate S50000x1024 1 [⟨S50000x512, a⟩, ⟨S50000x512, b⟩] concatenates_S50000x512_S50000x512_S50000x1024_d1) : (⟨S50000x512, .f32⟩ : BufTy).Contents (Elt F) → (⟨S50000x512, .f32⟩ : BufTy).Contents (Elt F) → (⟨S50000x1024, .f32⟩ : BufTy).Contents (Elt F)),
    unary main_arg3 main_v11 ((transpose S1024x512 [1, 0] · transposes_S512x1024_S1024x512_1_0) : (⟨S512x1024, .f32⟩ : BufTy).Contents (Elt F) → (⟨S1024x512, .f32⟩ : BufTy).Contents (Elt F)),
    binary main_v10 main_v11 main_v12 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x512, .f32⟩) main_call0_v0) (broadcastInDim S50000x512 ![] bcast_S_S50000x512),
    TRef.binary (TRef.of (T := ⟨S50000x512, .f32⟩) main_v12) (TRef.of (T := ⟨S50000x512, .f32⟩) main_call0_v0) (TRef.of (T := ⟨S50000x512, .f32⟩) main_v13) maximumf ]

/-- The neighbour mean of the first layer's features. -/
abbrev opsC : List (HloOp τ sig (Elt F)) :=
  [ nullary main_c_2 (constantI S_ 32 0#32),
    unary main_c_2 main_v14 (broadcastInDim S50000x2 ![] bcast_S_S50000x2 : (⟨S_, .i32⟩ : BufTy).Contents (Elt F) → (⟨S50000x2, .i32⟩ : BufTy).Contents (Elt F)),
    binary main_arg2 main_v14 main_v15 (cmpi .slt : (⟨S50000x2, .i32⟩ : BufTy).Contents (Elt F) → (⟨S50000x2, .i32⟩ : BufTy).Contents (Elt F) → (⟨S50000x2, .i1⟩ : BufTy).Contents (Elt F)),
    nullary main_c_3 (constantI S_ 32 50000#32),
    unary main_c_3 main_v16 (broadcastInDim S50000x2 ![] bcast_S_S50000x2 : (⟨S_, .i32⟩ : BufTy).Contents (Elt F) → (⟨S50000x2, .i32⟩ : BufTy).Contents (Elt F)),
    binary main_arg2 main_v16 main_v17 (addi : (⟨S50000x2, .i32⟩ : BufTy).Contents (Elt F) → (⟨S50000x2, .i32⟩ : BufTy).Contents (Elt F) → (⟨S50000x2, .i32⟩ : BufTy).Contents (Elt F)),
    ternary main_v15 main_v17 main_arg2 main_v18 (select : (⟨S50000x2, .i1⟩ : BufTy).Contents (Elt F) → (⟨S50000x2, .i32⟩ : BufTy).Contents (Elt F) → (⟨S50000x2, .i32⟩ : BufTy).Contents (Elt F) → (⟨S50000x2, .i32⟩ : BufTy).Contents (Elt F)),
    unary main_v18 main_v19 (broadcastInDim S50000x2x1 ![0, 1] bcast_S50000x2_S50000x2x1_0_1 : (⟨S50000x2, .i32⟩ : BufTy).Contents (Elt F) → (⟨S50000x2x1, .i32⟩ : BufTy).Contents (Elt F)),
    binary main_v13 main_v19 main_v20 ((fun x i => Host.gather gather_S50000x512_S50000x2x1_S50000x2x512_2_0_n_n_0_2_1512 x i) : (⟨S50000x512, .f32⟩ : BufTy).Contents (Elt F) → (⟨S50000x2x1, .i32⟩ : BufTy).Contents (Elt F) → (⟨S50000x2x512, .f32⟩ : BufTy).Contents (Elt F)),
    nullary main_cst_4 (constant S_ .f32 0x00000000#32),
    binary main_v20 main_cst_4 main_v21 ((fun x v => Host.reduceAdd x v reducesTo_S50000x2x512_S50000x512_d1 h_S_) : (⟨S50000x2x512, .f32⟩ : BufTy).Contents (Elt F) → (⟨S_, .f32⟩ : BufTy).Contents (Elt F) → (⟨S50000x512, .f32⟩ : BufTy).Contents (Elt F)),
    nullary main_cst_5 (constant S_ .f32 0x40000000#32),
    unary main_cst_5 main_v22 (broadcastInDim S50000x512 ![] bcast_S_S50000x512 : (⟨S_, .f32⟩ : BufTy).Contents (Elt F) → (⟨S50000x512, .f32⟩ : BufTy).Contents (Elt F)),
    binary main_v21 main_v22 main_v23 (Host.divf : (⟨S50000x512, .f32⟩ : BufTy).Contents (Elt F) → (⟨S50000x512, .f32⟩ : BufTy).Contents (Elt F) → (⟨S50000x512, .f32⟩ : BufTy).Contents (Elt F)) ]

/-- The second layer. -/
abbrev opsD : List (HloOp τ sig (Elt F)) :=
  [ binary main_v13 main_v23 main_v24 ((fun a b => concatenate S50000x1024 1 [⟨S50000x512, a⟩, ⟨S50000x512, b⟩] concatenates_S50000x512_S50000x512_S50000x1024_d1) : (⟨S50000x512, .f32⟩ : BufTy).Contents (Elt F) → (⟨S50000x512, .f32⟩ : BufTy).Contents (Elt F) → (⟨S50000x1024, .f32⟩ : BufTy).Contents (Elt F)),
    unary main_arg4 main_v25 ((transpose S1024x512 [1, 0] · transposes_S512x1024_S1024x512_1_0) : (⟨S512x1024, .f32⟩ : BufTy).Contents (Elt F) → (⟨S1024x512, .f32⟩ : BufTy).Contents (Elt F)),
    binary main_v24 main_v25 main_v26 ((fun l r => Host.dotGeneral dot_S50000x1024_S1024x512_S50000x512_1_0_0_1_n_n none l r) : (⟨S50000x1024, .f32⟩ : BufTy).Contents (Elt F) → (⟨S1024x512, .f32⟩ : BufTy).Contents (Elt F) → (⟨S50000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x512, .f32⟩) main_call1_v0) (broadcastInDim S50000x512 ![] bcast_S_S50000x512),
    TRef.binary (TRef.of (T := ⟨S50000x512, .f32⟩) main_v26) (TRef.of (T := ⟨S50000x512, .f32⟩) main_call1_v0) (TRef.of (T := ⟨S50000x512, .f32⟩) main_v27) maximumf ]

/-- The flattening, the projection and the bias. -/
abbrev opsE : List (HloOp τ sig (Elt F)) :=
  [ reshape main_v27 main_v28 rfl shapeCasts_S50000x512_S1x25600000,
    unary main_arg5 main_v29 ((transpose S25600000x2 [1, 0] · transposes_S2x25600000_S25600000x2_1_0) : (⟨S2x25600000, .f32⟩ : BufTy).Contents (Elt F) → (⟨S25600000x2, .f32⟩ : BufTy).Contents (Elt F)),
    binary main_v28 main_v29 main_v30 ((fun l r => Host.dotGeneral dot_S1x25600000_S25600000x2_S1x2_1_0_0_1_n_n none l r) : (⟨S1x25600000, .f32⟩ : BufTy).Contents (Elt F) → (⟨S25600000x2, .f32⟩ : BufTy).Contents (Elt F) → (⟨S1x2, .f32⟩ : BufTy).Contents (Elt F)),
    unary main_arg6 main_v31 (broadcastInDim S1x2 ![1] bcast_S2_S1x2_1 : (⟨S2, .f32⟩ : BufTy).Contents (Elt F) → (⟨S1x2, .f32⟩ : BufTy).Contents (Elt F)),
    binary main_v30 main_v31 main_v32 (addf : (⟨S1x2, .f32⟩ : BufTy).Contents (Elt F) → (⟨S1x2, .f32⟩ : BufTy).Contents (Elt F) → (⟨S1x2, .f32⟩ : BufTy).Contents (Elt F)) ]

/-- The log-softmax. -/
abbrev opsF : List (HloOp τ sig (Elt F)) :=
  [ TRef.nullary (TRef.of (T := ⟨S_, .f32⟩) main_call2_cst) (constant S_ .f32 0xFF800000#32),
    TRef.binary (TRef.of (T := ⟨S1x2, .f32⟩) main_v32) (TRef.of (T := ⟨S_, .f32⟩) main_call2_cst) (TRef.of (T := ⟨S1, .f32⟩) main_call2_v0) (fun x v => Host.reduce FloatOps.maximumf x v reducesTo_S1x2_S1_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S1, .f32⟩) main_call2_v1) (broadcastInDim S1 ![] bcast_S_S1),
    TRef.binary (TRef.of (T := ⟨S1, .f32⟩) main_call2_v1) (TRef.of (T := ⟨S1, .f32⟩) main_call2_v0) (TRef.of (T := ⟨S1, .f32⟩) main_call2_v2) maximumf,
    TRef.unary (TRef.of (T := ⟨S1, .f32⟩) main_call2_v2) (TRef.of (T := ⟨S1x1, .f32⟩) main_call2_v3) (broadcastInDim S1x1 ![0] bcast_S1_S1x1_0),
    TRef.unary (TRef.of (T := ⟨S1x1, .f32⟩) main_call2_v3) (TRef.of (T := ⟨S1x2, .f32⟩) main_call2_v4) (broadcastInDim S1x2 ![0, 1] bcast_S1x1_S1x2_0_1),
    TRef.binary (TRef.of (T := ⟨S1x2, .f32⟩) main_v32) (TRef.of (T := ⟨S1x2, .f32⟩) main_call2_v4) (TRef.of (T := ⟨S1x2, .f32⟩) main_call2_v5) subf,
    TRef.unary (TRef.of (T := ⟨S1x2, .f32⟩) main_call2_v5) (TRef.of (T := ⟨S1x2, .f32⟩) main_call2_v6) Host.exp,
    TRef.nullary (TRef.of (T := ⟨S_, .f32⟩) main_call2_cst_1) (constant S_ .f32 0x00000000#32),
    TRef.binary (TRef.of (T := ⟨S1x2, .f32⟩) main_call2_v6) (TRef.of (T := ⟨S_, .f32⟩) main_call2_cst_1) (TRef.of (T := ⟨S1, .f32⟩) main_call2_v7) (fun x v => Host.reduceAdd x v reducesTo_S1x2_S1_d1 h_S_),
    TRef.unary (TRef.of (T := ⟨S1, .f32⟩) main_call2_v7) (TRef.of (T := ⟨S1x1, .f32⟩) main_call2_v8) (broadcastInDim S1x1 ![0] bcast_S1_S1x1_0),
    TRef.unary (TRef.of (T := ⟨S1x1, .f32⟩) main_call2_v8) (TRef.of (T := ⟨S1x1, .f32⟩) main_call2_v9) Host.log,
    TRef.unary (TRef.of (T := ⟨S1x1, .f32⟩) main_call2_v9) (TRef.of (T := ⟨S1x2, .f32⟩) main_call2_v10) (broadcastInDim S1x2 ![0, 1] bcast_S1x1_S1x2_0_1),
    TRef.binary (TRef.of (T := ⟨S1x2, .f32⟩) main_call2_v5) (TRef.of (T := ⟨S1x2, .f32⟩) main_call2_v10) (TRef.of (T := ⟨S1x2, .f32⟩) main_v33) subf ]

set_option maxRecDepth 8192 in
theorem ops_eq : (ops : List (HloOp τ sig (Elt F))) = opsA ++ opsB ++ opsC ++ opsD ++ opsE ++ opsF := rfl

variable (m : (ℓ : Loc nD τ sig) → Buf (Elt F) ℓ) (c : Dev nD)

/-- The buffer contents after each stretch, from the launch contents. -/
def U1 : Valuation τ sig (Elt F) := StableHlo.after opsA (launchContents m c)
def U2 : Valuation τ sig (Elt F) := StableHlo.after opsB (U1 m c)
def U3 : Valuation τ sig (Elt F) := StableHlo.after opsC (U2 m c)
def U4 : Valuation τ sig (Elt F) := StableHlo.after opsD (U3 m c)
def U5 : Valuation τ sig (Elt F) := StableHlo.after opsE (U4 m c)
def U6 : Valuation τ sig (Elt F) := StableHlo.after opsF (U5 m c)

/-- The contents after all sixty operations are the contents after the sixth stretch. -/
theorem after_ops : StableHlo.after ops (launchContents m c) = U6 m c := by
  rw [ops_eq, StableHlo.after_append, StableHlo.after_append, StableHlo.after_append, StableHlo.after_append, StableHlo.after_append]
  rfl

/-! ## The neighbour mean of the inputs -/

theorem U1_arg0 : U1 m c (Proc.devRef .tc main_arg0) = m ((c.tc : Thread nD τ).loc main_arg0) := by
  show StableHlo.after opsA (launchContents m c) (Proc.devRef .tc main_arg0) = _
  dsimp only [opsA]; after_results <;> rfl
theorem U1_arg1 : U1 m c (Proc.devRef .tc main_arg1) = m ((c.tc : Thread nD τ).loc main_arg1) := by
  show StableHlo.after opsA (launchContents m c) (Proc.devRef .tc main_arg1) = _
  dsimp only [opsA]; after_results <;> rfl
theorem U1_arg2 : U1 m c (Proc.devRef .tc main_arg2) = m ((c.tc : Thread nD τ).loc main_arg2) := by
  show StableHlo.after opsA (launchContents m c) (Proc.devRef .tc main_arg2) = _
  dsimp only [opsA]; after_results <;> rfl
theorem U1_arg3 : U1 m c (Proc.devRef .tc main_arg3) = m ((c.tc : Thread nD τ).loc main_arg3) := by
  show StableHlo.after opsA (launchContents m c) (Proc.devRef .tc main_arg3) = _
  dsimp only [opsA]; after_results <;> rfl
theorem U1_arg4 : U1 m c (Proc.devRef .tc main_arg4) = m ((c.tc : Thread nD τ).loc main_arg4) := by
  show StableHlo.after opsA (launchContents m c) (Proc.devRef .tc main_arg4) = _
  dsimp only [opsA]; after_results <;> rfl
theorem U1_arg5 : U1 m c (Proc.devRef .tc main_arg5) = m ((c.tc : Thread nD τ).loc main_arg5) := by
  show StableHlo.after opsA (launchContents m c) (Proc.devRef .tc main_arg5) = _
  dsimp only [opsA]; after_results <;> rfl
theorem U1_arg6 : U1 m c (Proc.devRef .tc main_arg6) = m ((c.tc : Thread nD τ).loc main_arg6) := by
  show StableHlo.after opsA (launchContents m c) (Proc.devRef .tc main_arg6) = _
  dsimp only [opsA]; after_results <;> rfl
theorem U1_v9 : U1 m c (Proc.devRef .tc main_v9) = val_main_v9 (F := F) (m ((c.tc : Thread nD τ).loc main_arg0)) (m ((c.tc : Thread nD τ).loc main_arg1)) := by
  show StableHlo.after opsA (launchContents m c) (Proc.devRef .tc main_v9) = _
  dsimp only [opsA]; after_results <;> rfl

/-! ## The first layer -/

theorem U2_arg0 : U2 m c (Proc.devRef .tc main_arg0) = m ((c.tc : Thread nD τ).loc main_arg0) := by
  refine Eq.trans ?_ (U1_arg0 m c)
  show StableHlo.after opsB (U1 m c) (Proc.devRef .tc main_arg0) = _
  dsimp only [opsB]; after_results
theorem U2_arg1 : U2 m c (Proc.devRef .tc main_arg1) = m ((c.tc : Thread nD τ).loc main_arg1) := by
  refine Eq.trans ?_ (U1_arg1 m c)
  show StableHlo.after opsB (U1 m c) (Proc.devRef .tc main_arg1) = _
  dsimp only [opsB]; after_results
theorem U2_arg2 : U2 m c (Proc.devRef .tc main_arg2) = m ((c.tc : Thread nD τ).loc main_arg2) := by
  refine Eq.trans ?_ (U1_arg2 m c)
  show StableHlo.after opsB (U1 m c) (Proc.devRef .tc main_arg2) = _
  dsimp only [opsB]; after_results
theorem U2_arg3 : U2 m c (Proc.devRef .tc main_arg3) = m ((c.tc : Thread nD τ).loc main_arg3) := by
  refine Eq.trans ?_ (U1_arg3 m c)
  show StableHlo.after opsB (U1 m c) (Proc.devRef .tc main_arg3) = _
  dsimp only [opsB]; after_results
theorem U2_arg4 : U2 m c (Proc.devRef .tc main_arg4) = m ((c.tc : Thread nD τ).loc main_arg4) := by
  refine Eq.trans ?_ (U1_arg4 m c)
  show StableHlo.after opsB (U1 m c) (Proc.devRef .tc main_arg4) = _
  dsimp only [opsB]; after_results
theorem U2_arg5 : U2 m c (Proc.devRef .tc main_arg5) = m ((c.tc : Thread nD τ).loc main_arg5) := by
  refine Eq.trans ?_ (U1_arg5 m c)
  show StableHlo.after opsB (U1 m c) (Proc.devRef .tc main_arg5) = _
  dsimp only [opsB]; after_results
theorem U2_arg6 : U2 m c (Proc.devRef .tc main_arg6) = m ((c.tc : Thread nD τ).loc main_arg6) := by
  refine Eq.trans ?_ (U1_arg6 m c)
  show StableHlo.after opsB (U1 m c) (Proc.devRef .tc main_arg6) = _
  dsimp only [opsB]; after_results
theorem U2_v13 : U2 m c (Proc.devRef .tc main_v13) = val_main_v13 (F := F) (m ((c.tc : Thread nD τ).loc main_arg0)) (m ((c.tc : Thread nD τ).loc main_arg1)) (m ((c.tc : Thread nD τ).loc main_arg3)) := by
  unfold val_main_v13 val_main_v12 val_main_v10 val_main_v11 val_main_call0_v0 val_main_call0_cst
  rw [← U1_v9 m c, ← U1_arg0 m c, ← U1_arg3 m c]
  show StableHlo.after opsB (U1 m c) (Proc.devRef .tc main_v13) = _
  dsimp only [opsB]; after_results <;> rfl

/-! ## The neighbour mean of the first layer's features -/

theorem U3_arg0 : U3 m c (Proc.devRef .tc main_arg0) = m ((c.tc : Thread nD τ).loc main_arg0) := by
  refine Eq.trans ?_ (U2_arg0 m c)
  show StableHlo.after opsC (U2 m c) (Proc.devRef .tc main_arg0) = _
  dsimp only [opsC]; after_results
theorem U3_arg1 : U3 m c (Proc.devRef .tc main_arg1) = m ((c.tc : Thread nD τ).loc main_arg1) := by
  refine Eq.trans ?_ (U2_arg1 m c)
  show StableHlo.after opsC (U2 m c) (Proc.devRef .tc main_arg1) = _
  dsimp only [opsC]; after_results
theorem U3_arg2 : U3 m c (Proc.devRef .tc main_arg2) = m ((c.tc : Thread nD τ).loc main_arg2) := by
  refine Eq.trans ?_ (U2_arg2 m c)
  show StableHlo.after opsC (U2 m c) (Proc.devRef .tc main_arg2) = _
  dsimp only [opsC]; after_results
theorem U3_arg3 : U3 m c (Proc.devRef .tc main_arg3) = m ((c.tc : Thread nD τ).loc main_arg3) := by
  refine Eq.trans ?_ (U2_arg3 m c)
  show StableHlo.after opsC (U2 m c) (Proc.devRef .tc main_arg3) = _
  dsimp only [opsC]; after_results
theorem U3_arg4 : U3 m c (Proc.devRef .tc main_arg4) = m ((c.tc : Thread nD τ).loc main_arg4) := by
  refine Eq.trans ?_ (U2_arg4 m c)
  show StableHlo.after opsC (U2 m c) (Proc.devRef .tc main_arg4) = _
  dsimp only [opsC]; after_results
theorem U3_arg5 : U3 m c (Proc.devRef .tc main_arg5) = m ((c.tc : Thread nD τ).loc main_arg5) := by
  refine Eq.trans ?_ (U2_arg5 m c)
  show StableHlo.after opsC (U2 m c) (Proc.devRef .tc main_arg5) = _
  dsimp only [opsC]; after_results
theorem U3_arg6 : U3 m c (Proc.devRef .tc main_arg6) = m ((c.tc : Thread nD τ).loc main_arg6) := by
  refine Eq.trans ?_ (U2_arg6 m c)
  show StableHlo.after opsC (U2 m c) (Proc.devRef .tc main_arg6) = _
  dsimp only [opsC]; after_results
theorem U3_v13 : U3 m c (Proc.devRef .tc main_v13) = val_main_v13 (F := F) (m ((c.tc : Thread nD τ).loc main_arg0)) (m ((c.tc : Thread nD τ).loc main_arg1)) (m ((c.tc : Thread nD τ).loc main_arg3)) := by
  refine Eq.trans ?_ (U2_v13 m c)
  show StableHlo.after opsC (U2 m c) (Proc.devRef .tc main_v13) = _
  dsimp only [opsC]; after_results
theorem U3_v23 : U3 m c (Proc.devRef .tc main_v23) = val_main_v23 (F := F) (m ((c.tc : Thread nD τ).loc main_arg0)) (m ((c.tc : Thread nD τ).loc main_arg1)) (m ((c.tc : Thread nD τ).loc main_arg2)) (m ((c.tc : Thread nD τ).loc main_arg3)) := by
  unfold val_main_v23 val_main_v21 val_main_v20
  rw [← U2_v13 m c, ← U2_arg2 m c]
  show StableHlo.after opsC (U2 m c) (Proc.devRef .tc main_v23) = _
  dsimp only [opsC]; after_results <;> rfl

/-! ## The second layer -/

theorem U4_arg0 : U4 m c (Proc.devRef .tc main_arg0) = m ((c.tc : Thread nD τ).loc main_arg0) := by
  refine Eq.trans ?_ (U3_arg0 m c)
  show StableHlo.after opsD (U3 m c) (Proc.devRef .tc main_arg0) = _
  dsimp only [opsD]; after_results
theorem U4_arg1 : U4 m c (Proc.devRef .tc main_arg1) = m ((c.tc : Thread nD τ).loc main_arg1) := by
  refine Eq.trans ?_ (U3_arg1 m c)
  show StableHlo.after opsD (U3 m c) (Proc.devRef .tc main_arg1) = _
  dsimp only [opsD]; after_results
theorem U4_arg2 : U4 m c (Proc.devRef .tc main_arg2) = m ((c.tc : Thread nD τ).loc main_arg2) := by
  refine Eq.trans ?_ (U3_arg2 m c)
  show StableHlo.after opsD (U3 m c) (Proc.devRef .tc main_arg2) = _
  dsimp only [opsD]; after_results
theorem U4_arg3 : U4 m c (Proc.devRef .tc main_arg3) = m ((c.tc : Thread nD τ).loc main_arg3) := by
  refine Eq.trans ?_ (U3_arg3 m c)
  show StableHlo.after opsD (U3 m c) (Proc.devRef .tc main_arg3) = _
  dsimp only [opsD]; after_results
theorem U4_arg4 : U4 m c (Proc.devRef .tc main_arg4) = m ((c.tc : Thread nD τ).loc main_arg4) := by
  refine Eq.trans ?_ (U3_arg4 m c)
  show StableHlo.after opsD (U3 m c) (Proc.devRef .tc main_arg4) = _
  dsimp only [opsD]; after_results
theorem U4_arg5 : U4 m c (Proc.devRef .tc main_arg5) = m ((c.tc : Thread nD τ).loc main_arg5) := by
  refine Eq.trans ?_ (U3_arg5 m c)
  show StableHlo.after opsD (U3 m c) (Proc.devRef .tc main_arg5) = _
  dsimp only [opsD]; after_results
theorem U4_arg6 : U4 m c (Proc.devRef .tc main_arg6) = m ((c.tc : Thread nD τ).loc main_arg6) := by
  refine Eq.trans ?_ (U3_arg6 m c)
  show StableHlo.after opsD (U3 m c) (Proc.devRef .tc main_arg6) = _
  dsimp only [opsD]; after_results
theorem U4_v27 : U4 m c (Proc.devRef .tc main_v27) = val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold val_main_v27 val_main_v26 val_main_v24 val_main_v25 val_main_call1_v0 val_main_call1_cst
  rw [← U3_v23 m c, ← U3_v13 m c, ← U3_arg4 m c]
  show StableHlo.after opsD (U3 m c) (Proc.devRef .tc main_v27) = _
  dsimp only [opsD]; after_results <;> rfl

/-! ## The flattening, the projection and the bias -/

theorem U5_arg0 : U5 m c (Proc.devRef .tc main_arg0) = m ((c.tc : Thread nD τ).loc main_arg0) := by
  refine Eq.trans ?_ (U4_arg0 m c)
  show StableHlo.after opsE (U4 m c) (Proc.devRef .tc main_arg0) = _
  dsimp only [opsE]; after_results
theorem U5_arg1 : U5 m c (Proc.devRef .tc main_arg1) = m ((c.tc : Thread nD τ).loc main_arg1) := by
  refine Eq.trans ?_ (U4_arg1 m c)
  show StableHlo.after opsE (U4 m c) (Proc.devRef .tc main_arg1) = _
  dsimp only [opsE]; after_results
theorem U5_arg2 : U5 m c (Proc.devRef .tc main_arg2) = m ((c.tc : Thread nD τ).loc main_arg2) := by
  refine Eq.trans ?_ (U4_arg2 m c)
  show StableHlo.after opsE (U4 m c) (Proc.devRef .tc main_arg2) = _
  dsimp only [opsE]; after_results
theorem U5_arg3 : U5 m c (Proc.devRef .tc main_arg3) = m ((c.tc : Thread nD τ).loc main_arg3) := by
  refine Eq.trans ?_ (U4_arg3 m c)
  show StableHlo.after opsE (U4 m c) (Proc.devRef .tc main_arg3) = _
  dsimp only [opsE]; after_results
theorem U5_arg4 : U5 m c (Proc.devRef .tc main_arg4) = m ((c.tc : Thread nD τ).loc main_arg4) := by
  refine Eq.trans ?_ (U4_arg4 m c)
  show StableHlo.after opsE (U4 m c) (Proc.devRef .tc main_arg4) = _
  dsimp only [opsE]; after_results
theorem U5_arg5 : U5 m c (Proc.devRef .tc main_arg5) = m ((c.tc : Thread nD τ).loc main_arg5) := by
  refine Eq.trans ?_ (U4_arg5 m c)
  show StableHlo.after opsE (U4 m c) (Proc.devRef .tc main_arg5) = _
  dsimp only [opsE]; after_results
theorem U5_arg6 : U5 m c (Proc.devRef .tc main_arg6) = m ((c.tc : Thread nD τ).loc main_arg6) := by
  refine Eq.trans ?_ (U4_arg6 m c)
  show StableHlo.after opsE (U4 m c) (Proc.devRef .tc main_arg6) = _
  dsimp only [opsE]; after_results
theorem U5_v28 : U5 m c (Proc.devRef .tc main_v28) = val_main_v28 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold val_main_v28
  rw [← U4_v27 m c]
  show StableHlo.after opsE (U4 m c) (Proc.devRef .tc main_v28) = _
  dsimp only [opsE]; after_results <;> rfl
theorem U5_v32 : U5 m c (Proc.devRef .tc main_v32) = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold val_main_v32 val_main_v30 val_main_v31 val_main_v29 val_main_v28
  rw [← U4_v27 m c, ← U4_arg5 m c, ← U4_arg6 m c]
  show StableHlo.after opsE (U4 m c) (Proc.devRef .tc main_v32) = _
  dsimp only [opsE]; after_results <;> rfl

/-! ## The log-softmax -/

theorem U6_arg0 : U6 m c (Proc.devRef .tc main_arg0) = m ((c.tc : Thread nD τ).loc main_arg0) := by
  refine Eq.trans ?_ (U5_arg0 m c)
  show StableHlo.after opsF (U5 m c) (Proc.devRef .tc main_arg0) = _
  dsimp only [opsF]; after_results
theorem U6_arg1 : U6 m c (Proc.devRef .tc main_arg1) = m ((c.tc : Thread nD τ).loc main_arg1) := by
  refine Eq.trans ?_ (U5_arg1 m c)
  show StableHlo.after opsF (U5 m c) (Proc.devRef .tc main_arg1) = _
  dsimp only [opsF]; after_results
theorem U6_arg2 : U6 m c (Proc.devRef .tc main_arg2) = m ((c.tc : Thread nD τ).loc main_arg2) := by
  refine Eq.trans ?_ (U5_arg2 m c)
  show StableHlo.after opsF (U5 m c) (Proc.devRef .tc main_arg2) = _
  dsimp only [opsF]; after_results
theorem U6_arg3 : U6 m c (Proc.devRef .tc main_arg3) = m ((c.tc : Thread nD τ).loc main_arg3) := by
  refine Eq.trans ?_ (U5_arg3 m c)
  show StableHlo.after opsF (U5 m c) (Proc.devRef .tc main_arg3) = _
  dsimp only [opsF]; after_results
theorem U6_arg4 : U6 m c (Proc.devRef .tc main_arg4) = m ((c.tc : Thread nD τ).loc main_arg4) := by
  refine Eq.trans ?_ (U5_arg4 m c)
  show StableHlo.after opsF (U5 m c) (Proc.devRef .tc main_arg4) = _
  dsimp only [opsF]; after_results
theorem U6_arg5 : U6 m c (Proc.devRef .tc main_arg5) = m ((c.tc : Thread nD τ).loc main_arg5) := by
  refine Eq.trans ?_ (U5_arg5 m c)
  show StableHlo.after opsF (U5 m c) (Proc.devRef .tc main_arg5) = _
  dsimp only [opsF]; after_results
theorem U6_arg6 : U6 m c (Proc.devRef .tc main_arg6) = m ((c.tc : Thread nD τ).loc main_arg6) := by
  refine Eq.trans ?_ (U5_arg6 m c)
  show StableHlo.after opsF (U5 m c) (Proc.devRef .tc main_arg6) = _
  dsimp only [opsF]; after_results
theorem U6_v28 : U6 m c (Proc.devRef .tc main_v28) = val_main_v28 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (U5_v28 m c)
  show StableHlo.after opsF (U5 m c) (Proc.devRef .tc main_v28) = _
  dsimp only [opsF]; after_results
theorem U6_v33 : U6 m c (Proc.devRef .tc main_v33) = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold val_main_v33 val_main_call2_v10 val_main_call2_v9 val_main_call2_v8 val_main_call2_v7 val_main_call2_v6 val_main_call2_v5 val_main_call2_v4 val_main_call2_v3 val_main_call2_v2 val_main_call2_v0
  rw [← U5_v32 m c]
  show StableHlo.after opsF (U5 m c) (Proc.devRef .tc main_v33) = _
  dsimp only [opsF]; after_results <;> rfl

/-- The reference's run with both results as the stage functions of the inputs, the inputs unchanged. -/
theorem run (ρ : Dev nD → PrngReg) :
    θ_run defs (onTc (τ := τ) (main (F := F))) ⟨m, fun _ => 0, ρ⟩ fun r => ∀ c : Dev nD,
      r.2.mem ((c.tc : Thread nD τ).loc main_v28) = val_main_v28 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v33) = val_main_v33 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v28).trans ((congrFun (after_ops m c) _).trans (U6_v28 m c)),
       (h c main_v33).trans ((congrFun (after_ops m c) _).trans (U6_v33 m c)),
       (h c main_arg0).trans ((congrFun (after_ops m c) _).trans (U6_arg0 m c)),
       (h c main_arg1).trans ((congrFun (after_ops m c) _).trans (U6_arg1 m c)),
       (h c main_arg2).trans ((congrFun (after_ops m c) _).trans (U6_arg2 m c)),
       (h c main_arg3).trans ((congrFun (after_ops m c) _).trans (U6_arg3 m c)),
       (h c main_arg4).trans ((congrFun (after_ops m c) _).trans (U6_arg4 m c)),
       (h c main_arg5).trans ((congrFun (after_ops m c) _).trans (U6_arg5 m c)),
       (h c main_arg6).trans ((congrFun (after_ops m c) _).trans (U6_arg6 m c))⟩)
    (run_seq scopedRefs_eq scopedSems_eq defs main (fun _ => ops) main_eq (fun _ => ops_sub) m ρ)

end Cert.ReferenceIdeal.RunStages

end
-- ==== Proof.RefSide.lean ====
import proofs.«146143_j43654047596868_1_alg».proof.Proof.RefRun
import proofs.«146143_j43654047596868_1_alg».proof.Proof.RefRead
import proofs.«146143_j43654047596868_1_alg».proof.Proof.KSpec
import proofs.«146143_j43654047596868_1_alg».proof.Proof.Spec
import proofs.«146143_j43654047596868_1_alg».proof.Proof.LibDot2
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.ReadP Cert.Sage

open Idealize.ShloMosaic.ValueIdx

/-- The contraction of the joined row by the transposed weights splits at the join:
    the first 512 terms read the features and the self block, the last 512 the neighbour mean and the neighbour block. -/
theorem layer_law (h a : (⟨S50000x512, .f32⟩ : BufTy).Contents (Elt Ideal)) (W : (⟨S512x1024, .f32⟩ : BufTy).Contents (Elt Ideal)) :
    maximumf (F := Ideal) (Host.dotGeneral (φ₁ := .f32) (φ₂ := .f32) dot_S50000x1024_S1024x512_S50000x512_1_0_0_1_n_n none
        (concatenate S50000x1024 1 [⟨S50000x512, h⟩, ⟨S50000x512, a⟩] concatenates_S50000x512_S50000x512_S50000x1024_d1)
        (transpose S1024x512 [1, 0] W transposes_S512x1024_S1024x512_1_0))
      (broadcastInDim S50000x512 ![] bcast_S_S50000x512 (constant S_ .f32 0x00000000#32))
    = layer h a (selfT W) (neighT W) := by
  funext i
  obtain ⟨p, q, rfl⟩ : ∃ (p : Fin 50000) (q : Fin 512), i = ix2 p q := ⟨i 0, i 1, eq_ix2 i⟩
  rw [layer_apply, maximumf_apply]
  have hz : broadcastInDim S50000x512 ![] bcast_S_S50000x512 (constant (F := Ideal) S_ .f32 0x00000000#32) (ix2 p q) = 0 := by
    rw [broadcastInDim_apply _ bcast_S_S50000x512 _ (ix2 p q) (fun a => a.elim0) (fun a => a.elim0), constant_apply,
      Ideal.ofBits_zero_f32]
  rw [hz]
  congr 1
  have hd : dot_S50000x1024_S1024x512_S50000x512_1_0_0_1_n_n
      = Dot2.mmDims 50000 1024 512 dot_S50000x1024_S1024x512_S50000x512_1_0_0_1_n_n_wf := rfl
  rw [hd, Dot2.host_dotGeneral_mm_apply]
  refine (Fin.sum_univ_add (a := 512) (b := 512) _).trans ?_
  congr 1
  · refine Finset.sum_congr rfl fun k _ => ?_
    rw [selfT_apply]
    congr 1
    · exact concatenate_pair_apply_left 1 h a concatenates_S50000x512_S50000x512_S50000x1024_d1 _ rfl (ix2 p k)
        (fun b => match b with
          | ⟨0, _⟩ => rfl
          | ⟨1, _⟩ => rfl)
    · exact transpose_apply [1, 0] W transposes_S512x1024_S1024x512_1_0 _ _ (fun b => match b with
          | ⟨0, _⟩ => rfl
          | ⟨1, _⟩ => rfl)
  · refine Finset.sum_congr rfl fun k _ => ?_
    rw [neighT_apply]
    congr 1
    · exact concatenate_pair_apply_right 1 h a concatenates_S50000x512_S50000x512_S50000x1024_d1 _ rfl rfl (ix2 p k)
        (fun b hb => match b, hb with
          | ⟨0, _⟩, _ => rfl
          | ⟨1, _⟩, hb => absurd rfl hb)
        (Nat.add_comm _ _)
    · exact transpose_apply [1, 0] W transposes_S512x1024_S1024x512_1_0 _ _ (fun b => match b with
          | ⟨0, _⟩ => rfl
          | ⟨1, _⟩ => rfl)

/-- The reference's first neighbour mean is the network's: the same host operations on the same operands. -/
theorem ref_agg1 (x0 : (⟨S50000x512, .f32⟩ : BufTy).Contents (Elt Ideal)) (x1 : (⟨S50000x2, .i32⟩ : BufTy).Contents (Elt Ideal)) :
    val_main_v9 (F := Ideal) x0 x1 = Cert.KernelIdeal.KSpec.agg x0 x1 := rfl

/-- The reference's first layer is the network's first layer. -/
theorem ref_L1 (x0 : (⟨S50000x512, .f32⟩ : BufTy).Contents (Elt Ideal)) (x1 : (⟨S50000x2, .i32⟩ : BufTy).Contents (Elt Ideal))
    (x3 : (⟨S512x1024, .f32⟩ : BufTy).Contents (Elt Ideal)) :
    val_main_v13 (F := Ideal) x0 x1 x3 = Cert.KernelIdeal.KSpec.L1 x0 x1 x3 := by
  unfold val_main_v13 val_main_v12 val_main_v10 val_main_v11 val_main_call0_v0 val_main_call0_cst
  rw [ref_agg1]
  exact layer_law x0 (Cert.KernelIdeal.KSpec.agg x0 x1) x3

/-- The reference's second neighbour mean is the network's, taken of the first layer's result. -/
theorem ref_agg2 (x0 : (⟨S50000x512, .f32⟩ : BufTy).Contents (Elt Ideal)) (x1 x2 : (⟨S50000x2, .i32⟩ : BufTy).Contents (Elt Ideal))
    (x3 : (⟨S512x1024, .f32⟩ : BufTy).Contents (Elt Ideal)) :
    val_main_v23 (F := Ideal) x0 x1 x2 x3 = Cert.KernelIdeal.KSpec.agg (val_main_v13 (F := Ideal) x0 x1 x3) x2 := rfl

/-- The reference's second layer is the network's second layer. -/
theorem ref_L2 (x0 : (⟨S50000x512, .f32⟩ : BufTy).Contents (Elt Ideal)) (x1 x2 : (⟨S50000x2, .i32⟩ : BufTy).Contents (Elt Ideal))
    (x3 x4 : (⟨S512x1024, .f32⟩ : BufTy).Contents (Elt Ideal)) :
    val_main_v27 (F := Ideal) x0 x1 x2 x3 x4 = Cert.KernelIdeal.KSpec.L2 x0 x1 x2 x3 x4 := by
  unfold val_main_v27 val_main_v26 val_main_v24 val_main_v25 val_main_call1_v0 val_main_call1_cst
  rw [ref_agg2, ref_L1]
  exact layer_law (Cert.KernelIdeal.KSpec.L1 x0 x1 x3) (Cert.KernelIdeal.KSpec.agg (Cert.KernelIdeal.KSpec.L1 x0 x1 x3) x2) x4

/-- The reference's first result, as a function of the inputs, is the network's flattened second-layer features. -/
theorem ref_out0 (x0 : (⟨S50000x512, .f32⟩ : BufTy).Contents (Elt Ideal)) (x1 x2 : (⟨S50000x2, .i32⟩ : BufTy).Contents (Elt Ideal))
    (x3 x4 : (⟨S512x1024, .f32⟩ : BufTy).Contents (Elt Ideal)) :
    val_main_v28 (F := Ideal) x0 x1 x2 x3 x4 = Cert.KernelIdeal.KSpec.out0 x0 x1 x2 x3 x4 :=
  (show val_main_v28 (F := Ideal) x0 x1 x2 x3 x4 = Cert.KernelIdeal.KSpec.flat (val_main_v27 (F := Ideal) x0 x1 x2 x3 x4) from rfl).trans
    (congrArg Cert.KernelIdeal.KSpec.flat (ref_L2 x0 x1 x2 x3 x4))

/-- The reference's projection is the sum, over all flattened features, of feature times weight. -/
theorem ref_fc (x0 : (⟨S50000x512, .f32⟩ : BufTy).Contents (Elt Ideal)) (x1 x2 : (⟨S50000x2, .i32⟩ : BufTy).Contents (Elt Ideal))
    (x3 x4 : (⟨S512x1024, .f32⟩ : BufTy).Contents (Elt Ideal)) (x5 : (⟨S2x25600000, .f32⟩ : BufTy).Contents (Elt Ideal)) :
    val_main_v30 (F := Ideal) x0 x1 x2 x3 x4 x5 = fcSum (val_main_v28 (F := Ideal) x0 x1 x2 x3 x4) x5 := by
  funext i
  obtain ⟨p, q, rfl⟩ : ∃ (p : Fin 1) (q : Fin 2), i = ix2 p q := ⟨i 0, i 1, eq_ix2 i⟩
  obtain rfl : p = 0 := Subsingleton.elim _ _
  rw [val_main_v30_apply, fcSum_apply]
  refine Finset.sum_congr rfl fun k _ => ?_
  rw [val_main_v29_apply]
  have e1 : lidx_main_v30 (ix2 (0 : Fin 1) q) k = ix2 (0 : Fin 1) k :=
    funext fun a => Fin.ext (by match a with | ⟨0, _⟩ => rfl | ⟨1, _⟩ => rfl)
  have e2 : idx_main_v29 (ridx_main_v30 (ix2 (0 : Fin 1) q) k) = ix2 q k :=
    funext fun a => Fin.ext (by match a with | ⟨0, _⟩ => rfl | ⟨1, _⟩ => rfl)
  rw [e1, e2]

/-- The reference's second result, as a function of the inputs, is the network's log-probabilities. -/
theorem ref_out1 (x0 : (⟨S50000x512, .f32⟩ : BufTy).Contents (Elt Ideal)) (x1 x2 : (⟨S50000x2, .i32⟩ : BufTy).Contents (Elt Ideal))
    (x3 x4 : (⟨S512x1024, .f32⟩ : BufTy).Contents (Elt Ideal)) (x5 : (⟨S2x25600000, .f32⟩ : BufTy).Contents (Elt Ideal))
    (x6 : (⟨S2, .f32⟩ : BufTy).Contents (Elt Ideal)) :
    val_main_v33 (F := Ideal) x0 x1 x2 x3 x4 x5 x6 = Cert.KernelIdeal.KSpec.out1 x0 x1 x2 x3 x4 x5 x6 := by
  have h1 : val_main_v33 (F := Ideal) x0 x1 x2 x3 x4 x5 x6
      = Cert.KernelIdeal.KSpec.logSoftmax (addf (val_main_v30 (F := Ideal) x0 x1 x2 x3 x4 x5) (Cert.KernelIdeal.KSpec.biasRow x6)) := rfl
  rw [h1, ref_fc, ref_out0]
  rfl

end Cert.ReferenceIdeal.RefValue

end
-- ==== Proof.lean ====
/-
  A two-layer neighbour-mean network (gather two sampled neighbours' rows, average them, apply
  relu (h · Wself + mean · Wneigh), twice), its features flattened and projected to two logits, bias
  added, log-softmax taken: the kernel's program computes the two matrix products of a layer
  separately over row blocks and accumulates the projection over 50 column blocks; the reference
  multiplies the concatenation [h, mean] by the whole transposed weight matrix and projects in one
  product. Over the extended reals both are one function of the seven inputs: a sum over the 1024
  concatenated inputs is the sum over its first 512 plus the sum over its last 512, a sum over all
  25600000 flattened features is the ordered sum of its 50 blocks' sums started from zero, and the
  host operations around the products are the same on both sides. No finiteness is used: only that
  addition of extended reals is associative and commutative with zero as its unit.

  The kernel's two frames are the generated ones; the reference's is its run with the results dropped;
  nothing was rewritten by the idealization, so that claim is trivial.
-/
import proofs.«146143_j43654047596868_1_alg».proof.Defs
import proofs.«146143_j43654047596868_1_alg».proof.Proof.Gen.Kernel
import proofs.«146143_j43654047596868_1_alg».proof.Proof.Gen.Kernel.Frame
import proofs.«146143_j43654047596868_1_alg».proof.Proof.Gen.KernelIdeal
import proofs.«146143_j43654047596868_1_alg».proof.Proof.Gen.KernelIdeal.Frame
import proofs.«146143_j43654047596868_1_alg».proof.Proof.Gen.ReferenceIdeal
import proofs.«146143_j43654047596868_1_alg».proof.Proof.Gen.Pre_finite_inputs
import proofs.«146143_j43654047596868_1_alg».proof.Proof.Fold
import proofs.«146143_j43654047596868_1_alg».proof.Proof.RefRunStages
import proofs.«146143_j43654047596868_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RunStages.run m ρ)

/-- Both programs end with the flattened second-layer features and the log-probabilities of the
    network, as functions of the same seven inputs. -/
theorem algebraic : Cert.algebraic_KernelIdeal_ReferenceIdeal := by
  intro m ρ m' ρ' _ hagree
  refine ⟨fun c => Cert.KernelIdeal.KSpec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.KSpec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Value.run m ρ, ?_⟩
  refine (θ_run Cert.ReferenceIdeal.defs _ _).mono (fun _ h c => ?_) (Cert.ReferenceIdeal.RunStages.run m' ρ')
  obtain ⟨h0, h1, h2, h3, h4, h5, h6⟩ := hagree c
  refine ⟨(h c).1.trans ?_, (h c).2.1.trans ?_, (h c).2.2⟩
  · rw [h0, h1, h2, h3, h4]
    exact Cert.ReferenceIdeal.RefValue.ref_out0 _ _ _ _ _
  · rw [h0, h1, h2, h3, h4, h5, h6]
    exact Cert.ReferenceIdeal.RefValue.ref_out1 _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
